-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v55)) (v2 : (c : Dev Cert.KernelIdeal.nD) → Buf (Elt Ideal) ((c.tc : Thread Cert.KernelIdeal.nD Cert.KernelIdeal.τ).loc Cert.KernelIdeal.main_c)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_c) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_c) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x3 : Shape := ⟨2, ![65536, 3]⟩
abbrev S65536x64 : Shape := ⟨2, ![65536, 64]⟩
abbrev S16384 : Shape := ⟨1, ![16384]⟩
abbrev S16384x32 : Shape := ⟨2, ![16384, 32]⟩
abbrev S64x67 : Shape := ⟨2, ![64, 67]⟩
abbrev S64 : Shape := ⟨1, ![64]⟩
abbrev S64x64 : Shape := ⟨2, ![64, 64]⟩
abbrev S128x64 : Shape := ⟨2, ![128, 64]⟩
abbrev S128 : Shape := ⟨1, ![128]⟩
abbrev S_ : Shape := ⟨0, ![]⟩

class Facts : Prop where
  bcast_S_S65536x3 : S_.BroadcastsInDim S65536x3 (![] : Fin 0 → Fin S65536x3.rank)
  reducesTo_S65536x3_S_d0_1 : S65536x3.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S64x67 : S_.BroadcastsInDim S64x67 (![] : Fin 0 → Fin S64x67.rank)
  reducesTo_S64x67_S_d0_1 : S64x67.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part6 {F : FTy → Type} [FloatOps F] (main_arg15 : FVec F S64 .f32) (main_arg21 : FVec F S128 .f32) (main_v98 : IVec S_ 1) (main_v101 : IVec S_ 1) : IVec S_ 1 :=
  let main_v102 : IVec S_ 1 := andi main_v98 main_v101
  let main_cst_40 : FVec F S_ .f32 := constant S_ .f32 0x00000000#32
  let main_v103 : FVec F S64 .f32 := broadcastInDim S64 ![] bcast_S_S64 main_cst_40
  let main_v104 : IVec S64 1 := cmpf .oge main_arg15 main_v103
  let main_c_41 : IVec S_ 1 := constantI S_ 1 1#1
  let main_v105 : IVec S_ 1 := (fun x v => Host.reduce IntOp.andi x v reducesTo_S64_S_d0 h_S_) main_v104 main_c_41
  let main_v106 : IVec S_ 1 := andi main_v102 main_v105
  let main_cst_42 : FVec F S_ .f32 := constant S_ .f32 0x00000000#32
  let main_v107 : FVec F S128 .f32 := broadcastInDim S128 ![] bcast_S_S128 main_cst_42
  let main_v108 : IVec S128 1 := cmpf .oge main_arg21 main_v107
  let main_c_43 : IVec S_ 1 := constantI S_ 1 1#1
  let main_v109 : IVec S_ 1 := (fun x v => Host.reduce IntOp.andi x v reducesTo_S128_S_d0 h_S_) main_v108 main_c_43
  let main_v110 : IVec S_ 1 := andi main_v106 main_v109
  main_v110

def fn_part5 {F : FTy → Type} [FloatOps F] (main_arg9 : FVec F S64 .f32) (main_arg15 : FVec F S64 .f32) (main_arg20 : FVec F S128 .f32) (main_arg21 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_cst_38 : FVec F S_ .f32 := constant S_ .f32 0x00000000#32
  let main_v99 : FVec F S64 .f32 := broadcastInDim S64 ![] bcast_S_S64 main_cst_38
  let main_v100 : IVec S64 1 := cmpf .oge main_arg9 main_v99
  let main_c_39 : IVec S_ 1 := constantI S_ 1 1#1
  let main_v101 : IVec S_ 1 := (fun x v => Host.reduce IntOp.andi x v reducesTo_S64_S_d0 h_S_) main_v100 main_c_39
  fn_part6 (F := F) main_arg15 main_arg21 main_v98 main_v101

def fn_part4 {F : FTy → Type} [FloatOps F] (main_arg9 : FVec F S64 .f32) (main_arg15 : FVec F S64 .f32) (main_arg16 : FVec F S128x64 .f32) (main_arg17 : FVec F S128 .f32) (main_arg18 : FVec F S128 .f32) (main_arg19 : FVec F S128 .f32) (main_arg20 : FVec F S128 .f32) (main_arg21 : FVec F S128 .f32) (main_v63 : IVec S_ 1) (main_v67 : IVec S_ 1) : IVec S_ 1 :=
  let main_v68 : IVec S_ 1 := andi main_v63 main_v67
  let main_v69 : FVec F S128x64 .f32 := Host.absf main_arg16
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg9 main_arg15 main_arg20 main_arg21 main_v83 main_v84 main_cst_32

def fn_part3 {F : FTy → Type} [FloatOps F] (main_arg9 : FVec F S64 .f32) (main_arg13 : FVec F S64 .f32) (main_arg14 : FVec F S64 .f32) (main_arg15 : FVec F S64 .f32) (main_arg16 : FVec F S128x64 .f32) (main_arg17 : FVec F S128 .f32) (main_arg18 : FVec F S128 .f32) (main_arg19 : FVec F S128 .f32) (main_arg20 : FVec F S128 .f32) (main_arg21 : FVec F S128 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg9 main_arg15 main_arg16 main_arg17 main_arg18 main_arg19 main_arg20 main_arg21 main_v63 main_v67

def fn_part2 {F : FTy → Type} [FloatOps F] (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S128x64 .f32) (main_arg17 : FVec F S128 .f32) (main_arg18 : FVec F S128 .f32) (main_arg19 : FVec F S128 .f32) (main_arg20 : FVec F S128 .f32) (main_arg21 : FVec F S128 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg9 main_arg13 main_arg14 main_arg15 main_arg16 main_arg17 main_arg18 main_arg19 main_arg20 main_arg21 main_v48 main_v49 main_v50

def fn_part1 {F : FTy → Type} [FloatOps F] (main_arg6 : FVec F S64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S128x64 .f32) (main_arg17 : FVec F S128 .f32) (main_arg18 : FVec F S128 .f32) (main_arg19 : FVec F S128 .f32) (main_arg20 : FVec F S128 .f32) (main_arg21 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S65536x3 .f32) (main_arg1 : FVec F S65536x64 .f32) (main_arg2 : IVec S16384 32) (main_arg3 : IVec S16384x32 32) (main_arg4 : FVec F S64x67 .f32) (main_arg5 : FVec F S64 .f32) (main_arg6 : FVec F S64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S128x64 .f32) (main_arg17 : FVec F S128 .f32) (main_arg18 : FVec F S128 .f32) (main_arg19 : FVec F S128 .f32) (main_arg20 : FVec F S128 .f32) (main_arg21 : FVec F S128 .f32) : IVec S_ 1 :=
  let main_v0 : FVec F S65536x3 .f32 := Host.absf main_arg0
  let main_cst : FVec F S_ .f32 := constant S_ .f32 0x7F800000#32
  let main_v1 : FVec F S65536x3 .f32 := broadcastInDim S65536x3 ![] bcast_S_S65536x3 main_cst
  let main_v2 : IVec S65536x3 1 := cmpf .olt main_v0 main_v1
  let main_c : IVec S_ 1 := constantI S_ 1 1#1
  let main_v3 : IVec S_ 1 := (fun x v => Host.reduce IntOp.andi x v reducesTo_S65536x3_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S64x67 .f32 := Host.absf main_arg4
  let main_cst_2 : FVec F S_ .f32 := constant S_ .f32 0x7F800000#32
  let main_v10 : FVec F S64x67 .f32 := broadcastInDim S64x67 ![] bcast_S_S64x67 main_cst_2
  let main_v11 : IVec S64x67 1 := cmpf .olt main_v9 main_v10
  let main_c_3 : IVec S_ 1 := constantI S_ 1 1#1
  let main_v12 : IVec S_ 1 := (fun x v => Host.reduce IntOp.andi x v reducesTo_S64x67_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S65536x3 : Shape := ⟨2, ![65536, 3]⟩
abbrev S65536x64 : Shape := ⟨2, ![65536, 64]⟩
abbrev S16384 : Shape := ⟨1, ![16384]⟩
abbrev S16384x32 : Shape := ⟨2, ![16384, 32]⟩
abbrev S64x67 : Shape := ⟨2, ![64, 67]⟩
abbrev S64 : Shape := ⟨1, ![64]⟩
abbrev S64x64 : Shape := ⟨2, ![64, 64]⟩
abbrev S128x64 : Shape := ⟨2, ![128, 64]⟩
abbrev S128 : Shape := ⟨1, ![128]⟩
abbrev S1 : Shape := ⟨1, ![1]⟩
abbrev S_ : Shape := ⟨0, ![]⟩
abbrev S16384x1 : Shape := ⟨2, ![16384, 1]⟩
abbrev S16384x3 : Shape := ⟨2, ![16384, 3]⟩
abbrev S16384x32x1 : Shape := ⟨3, ![16384, 32, 1]⟩
abbrev S16384x32x3 : Shape := ⟨3, ![16384, 32, 3]⟩
abbrev S16384x1x3 : Shape := ⟨3, ![16384, 1, 3]⟩
abbrev S16384x32x64 : Shape := ⟨3, ![16384, 32, 64]⟩
abbrev S16384x32x67 : Shape := ⟨3, ![16384, 32, 67]⟩
abbrev S67x64 : Shape := ⟨2, ![67, 64]⟩
abbrev S1x64 : Shape := ⟨2, ![1, 64]⟩
abbrev S64x128 : Shape := ⟨2, ![64, 128]⟩
abbrev S1x128 : Shape := ⟨2, ![1, 128]⟩
abbrev S16384x128 : Shape := ⟨2, ![16384, 128]⟩
abbrev S256x32x67 : Shape := ⟨3, ![256, 32, 67]⟩
abbrev S256x128 : Shape := ⟨2, ![256, 128]⟩
abbrev S8192x67 : Shape := ⟨2, ![8192, 67]⟩
abbrev S8192x64 : Shape := ⟨2, ![8192, 64]⟩
abbrev S8192x128 : Shape := ⟨2, ![8192, 128]⟩
abbrev S256x32x128 : Shape := ⟨3, ![256, 32, 128]⟩

abbrev nBuf : Space → Nat
  | .hbm => 88
  | .vmem => 13
  | .smem => 0
  | _ => 0

abbrev bufTy : (tb : Table) → Fin (tcTables nBuf tb) → BufTy
  | .hbm, ⟨0, _⟩ => ⟨S65536x3, .f32⟩
  | .hbm, ⟨1, _⟩ => ⟨S65536x64, .f32⟩
  | .hbm, ⟨2, _⟩ => ⟨S16384, .i32⟩
  | .hbm, ⟨3, _⟩ => ⟨S16384x32, .i32⟩
  | .hbm, ⟨4, _⟩ => ⟨S64x67, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S128x64, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S1, .i32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384x3, .f32⟩
  | .hbm, ⟨32, _⟩ => ⟨S_, .i32⟩
  | .hbm, ⟨33, _⟩ => ⟨S16384x32, .i32⟩
  | .hbm, ⟨34, _⟩ => ⟨S16384x32, .i1⟩
  | .hbm, ⟨35, _⟩ => ⟨S_, .i32⟩
  | .hbm, ⟨36, _⟩ => ⟨S16384x32, .i32⟩
  | .hbm, ⟨37, _⟩ => ⟨S16384x32, .i32⟩
  | .hbm, ⟨38, _⟩ => ⟨S16384x32, .i32⟩
  | .hbm, ⟨39, _⟩ => ⟨S16384x32x1, .i32⟩
  | .hbm, ⟨40, _⟩ => ⟨S16384x32x3, .f32⟩
  | .hbm, ⟨41, _⟩ => ⟨S16384x1x3, .f32⟩
  | .hbm, ⟨42, _⟩ => ⟨S16384x32x3, .f32⟩
  | .hbm, ⟨43, _⟩ => ⟨S16384x32x3, .f32⟩
  | .hbm, ⟨44, _⟩ => ⟨S_, .i32⟩
  | .hbm, ⟨45, _⟩ => ⟨S16384x32, .i32⟩
  | .hbm, ⟨46, _⟩ => ⟨S16384x32, .i1⟩
  | .hbm, ⟨47, _⟩ => ⟨S_, .i32⟩
  | .hbm, ⟨48, _⟩ => ⟨S16384x32, .i32⟩
  | .hbm, ⟨49, _⟩ => ⟨S16384x32, .i32⟩
  | .hbm, ⟨50, _⟩ => ⟨S16384x32, .i32⟩
  | .hbm, ⟨51, _⟩ => ⟨S16384x32x1, .i32⟩
  | .hbm, ⟨52, _⟩ => ⟨S16384x32x64, .f32⟩
  | .hbm, ⟨53, _⟩ => ⟨S16384x32x67, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S67x64, .f32⟩
  | .hbm, ⟨63, _⟩ => ⟨S1x64, .f32⟩
  | .hbm, ⟨64, _⟩ => ⟨S1x64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S64, .f32⟩
  | .hbm, ⟨73, _⟩ => ⟨S64x64, .f32⟩
  | .hbm, ⟨74, _⟩ => ⟨S1x64, .f32⟩
  | .hbm, ⟨75, _⟩ => ⟨S1x64, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S64x128, .f32⟩
  | .hbm, ⟨85, _⟩ => ⟨S1x128, .f32⟩
  | .hbm, ⟨86, _⟩ => ⟨S1x128, .f32⟩
  | .hbm, ⟨87, _⟩ => ⟨S16384x128, .f32⟩
  | .local _ .vmem, ⟨0, _⟩ => ⟨S256x32x67, .f32⟩
  | .local _ .vmem, ⟨1, _⟩ => ⟨S256x32x67, .f32⟩
  | .local _ .vmem, ⟨2, _⟩ => ⟨S67x64, .f32⟩
  | .local _ .vmem, ⟨3, _⟩ => ⟨S1x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S1x64, .f32⟩
  | .local _ .vmem, ⟨8, _⟩ => ⟨S64x128, .f32⟩
  | .local _ .vmem, ⟨9, _⟩ => ⟨S1x128, .f32⟩
  | .local _ .vmem, ⟨10, _⟩ => ⟨S1x128, .f32⟩
  | .local _ .vmem, ⟨11, _⟩ => ⟨S256x128, .f32⟩
  | .local _ .vmem, ⟨12, _⟩ => ⟨S256x128, .f32⟩
  | _, _ => ⟨S65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_c_0 : Ref sig .tc := ⟨.hbm, 23, rfl⟩
abbrev main_v0 : Ref sig .tc := ⟨.hbm, 24, rfl⟩
abbrev main_v1 : Ref sig .tc := ⟨.hbm, 25, rfl⟩
abbrev main_c_1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_v18 : Ref sig .tc := ⟨.hbm, 46, rfl⟩
abbrev main_c_5 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_6 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_7 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32x67 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S67x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  bcast_S16384x3_S16384x1x3_0_2 : S16384x3.BroadcastsInDim S16384x1x3 (![0, 2] : Fin 2 → Fin S16384x1x3.rank)
  bcast_S16384x1x3_S16384x32x3_0_1_2 : S16384x1x3.BroadcastsInDim S16384x32x3 (![0, 1, 2] : Fin 3 → Fin S16384x32x3.rank)
  concatenates_S16384x32x3_S16384x32x64_S16384x32x67_d2 : Shape.Concatenates [S16384x32x3, S16384x32x64] S16384x32x67 2
  bcast_S_S64 : S_.BroadcastsInDim S64 (![] : Fin 0 → Fin S64.rank)
  transposes_S64x67_S67x64_1_0 : S64x67.Transposes [1, 0] S67x64
  shapeCasts_S64_S1x64 : S64.ShapeCasts S1x64
  transposes_S64x64_S64x64_1_0 : S64x64.Transposes [1, 0] S64x64
  bcast_S_S128 : S_.BroadcastsInDim S128 (![] : Fin 0 → Fin S128.rank)
  transposes_S128x64_S64x128_1_0 : S128x64.Transposes [1, 0] S64x128
  shapeCasts_S128_S1x128 : S128.ShapeCasts S1x128
  inb_S256x32x67_S256x32x67_0_0_0 : ∀ a, (![0, 0, 0] : Fin 3 → Nat) a + S256x32x67.size a ≤ S256x32x67.size a
  h_S256x32x67 : 0 < S256x32x67.numel
  shapeCasts_S256x32x67_S256x32x67 : S256x32x67.ShapeCasts S256x32x67
  shapeCasts_S256x32x67_S8192x67 : S256x32x67.ShapeCasts S8192x67
  inb_S67x64_S67x64_0_0 : ∀ a, (![0, 0] : Fin 2 → Nat) a + S67x64.size a ≤ S67x64.size a
  h_S67x64 : 0 < S67x64.numel
  shapeCasts_S67x64_S67x64 : S67x64.ShapeCasts S67x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  shapeCasts_S8192x128_S256x32x128 : S8192x128.ShapeCasts S256x32x128
  reduces_S256x32x128_S256x128 : S256x32x128.Reduces [1] S256x128
  inb_S256x128_S256x128_0_0 : ∀ a, (![0, 0] : Fin 2 → Nat) a + S256x128.size a ≤ S256x128.size a
  h_S256x128 : 0 < S256x128.numel
  gather_S65536x3_S16384x1_S16384x3_1_0_n_n_0_1_13_wf : GatherDims.WF S65536x3 S16384x1 S16384x3 [1] [0] [] [0] [] 1 ![1, 3]
  gather_S65536x3_S16384x32x1_S16384x32x3_2_0_n_n_0_2_13_wf : GatherDims.WF S65536x3 S16384x32x1 S16384x32x3 [2] [0] [] [0] [] 2 ![1, 3]
  gather_S65536x64_S16384x32x1_S16384x32x64_2_0_n_n_0_2_164_wf : GatherDims.WF S65536x64 S16384x32x1 S16384x32x64 [2] [0] [] [0] [] 2 ![1, 64]
  dot_S8192x67_S67x64_S8192x64_1_0_0_1_n_n_wf : DotDims.WF S8192x67 S67x64 S8192x64 [1] [0] [0] [1] [] []
  dot_S8192x64_S64x64_S8192x64_1_0_0_1_n_n_wf : DotDims.WF S8192x64 S64x64 S8192x64 [1] [0] [0] [1] [] []
  dot_S8192x64_S64x128_S8192x128_1_0_0_1_n_n_wf : DotDims.WF S8192x64 S64x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32x67.size a ≤ S16384x32x67.size a
  hwx0_0 : ∀ i : grid0.Coords, EltTy.bits .f32 = 32 ∨ (Rect.block (s := S16384x32x67) S256x32x67.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S67x64.size a ≤ S67x64.size a
  hwx0_1 : ∀ i : grid0.Coords, EltTy.bits .f32 = 32 ∨ (Rect.block (s := S67x64) S67x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .f32 = 32 ∨ (Rect.block (s := S64x128) S64x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S16384x128.size a
  hwx0_10 : ∀ i : grid0.Coords, EltTy.bits .f32 = 32 ∨ (Rect.block (s := S16384x128) S256x128.size (cc0_transform_10 i) (hinb0_10 i)).WholeWords (EltTy.packing .f32)

variable [Facts₀]

def gather_S65536x3_S16384x1_S16384x3_1_0_n_n_0_1_13 : GatherDims S65536x3 S16384x1 S16384x3 where
  offsetDims := [1]
  collapsedSliceDims := [0]
  operandBatchingDims := []
  startIndicesBatchingDims := []
  startIndexMap := [0]
  indexVectorDim := 1
  sliceSizes := ![1, 3]
  wf := gather_S65536x3_S16384x1_S16384x3_1_0_n_n_0_1_13_wf
def gather_S65536x3_S16384x32x1_S16384x32x3_2_0_n_n_0_2_13 : GatherDims S65536x3 S16384x32x1 S16384x32x3 where
  offsetDims := [2]
  collapsedSliceDims := [0]
  operandBatchingDims := []
  startIndicesBatchingDims := []
  startIndexMap := [0]
  indexVectorDim := 2
  sliceSizes := ![1, 3]
  wf := gather_S65536x3_S16384x32x1_S16384x32x3_2_0_n_n_0_2_13_wf
def gather_S65536x64_S16384x32x1_S16384x32x64_2_0_n_n_0_2_164 : GatherDims S65536x64 S16384x32x1 S16384x32x64 where
  offsetDims := [2]
  collapsedSliceDims := [0]
  operandBatchingDims := []
  startIndicesBatchingDims := []
  startIndexMap := [0]
  indexVectorDim := 2
  sliceSizes := ![1, 64]
  wf := gather_S65536x64_S16384x32x1_S16384x32x64_2_0_n_n_0_2_164_wf
def dot_S8192x67_S67x64_S8192x64_1_0_0_1_n_n : DotDims S8192x67 S67x64 S8192x64 where
  lhsContracting := [1]
  rhsContracting := [0]
  lhsNonContracting := [0]
  rhsNonContracting := [1]
  lhsBatch := []
  rhsBatch := []
  wf := dot_S8192x67_S67x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.ofSpec (Memref.whole main_v24) S256x32x67.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S67x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v52) S64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v53) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v54) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v55) S256x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x3 : Shape := ⟨2, ![65536, 3]⟩
abbrev S65536x64 : Shape := ⟨2, ![65536, 64]⟩
abbrev S16384 : Shape := ⟨1, ![16384]⟩
abbrev S16384x32 : Shape := ⟨2, ![16384, 32]⟩
abbrev S64x67 : Shape := ⟨2, ![64, 67]⟩
abbrev S64 : Shape := ⟨1, ![64]⟩
abbrev S64x64 : Shape := ⟨2, ![64, 64]⟩
abbrev S128x64 : Shape := ⟨2, ![128, 64]⟩
abbrev S128 : Shape := ⟨1, ![128]⟩
abbrev S1 : Shape := ⟨1, ![1]⟩
abbrev S_ : Shape := ⟨0, ![]⟩
abbrev S16384x1 : Shape := ⟨2, ![16384, 1]⟩
abbrev S16384x3 : Shape := ⟨2, ![16384, 3]⟩
abbrev S16384x32x1 : Shape := ⟨3, ![16384, 32, 1]⟩
abbrev S16384x32x3 : Shape := ⟨3, ![16384, 32, 3]⟩
abbrev S16384x1x3 : Shape := ⟨3, ![16384, 1, 3]⟩
abbrev S16384x32x64 : Shape := ⟨3, ![16384, 32, 64]⟩
abbrev S16384x32x67 : Shape := ⟨3, ![16384, 32, 67]⟩
abbrev S1x1x64 : Shape := ⟨3, ![1, 1, 64]⟩
abbrev S16384x32x128 : Shape := ⟨3, ![16384, 32, 128]⟩
abbrev S1x1x128 : Shape := ⟨3, ![1, 1, 128]⟩
abbrev S16384x128 : Shape := ⟨2, ![16384, 128]⟩

abbrev nBuf : Space → Nat
  | .hbm => 119
  | .vmem => 0
  | .smem => 0
  | _ => 0

abbrev bufTy : (tb : Table) → Fin (tcTables nBuf tb) → BufTy
  | .hbm, ⟨0, _⟩ => ⟨S65536x3, .f32⟩
  | .hbm, ⟨1, _⟩ => ⟨S65536x64, .f32⟩
  | .hbm, ⟨2, _⟩ => ⟨S16384, .i32⟩
  | .hbm, ⟨3, _⟩ => ⟨S16384x32, .i32⟩
  | .hbm, ⟨4, _⟩ => ⟨S64x67, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S128x64, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S1, .i32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384x3, .f32⟩
  | .hbm, ⟨32, _⟩ => ⟨S_, .i32⟩
  | .hbm, ⟨33, _⟩ => ⟨S16384x32, .i32⟩
  | .hbm, ⟨34, _⟩ => ⟨S16384x32, .i1⟩
  | .hbm, ⟨35, _⟩ => ⟨S_, .i32⟩
  | .hbm, ⟨36, _⟩ => ⟨S16384x32, .i32⟩
  | .hbm, ⟨37, _⟩ => ⟨S16384x32, .i32⟩
  | .hbm, ⟨38, _⟩ => ⟨S16384x32, .i32⟩
  | .hbm, ⟨39, _⟩ => ⟨S16384x32x1, .i32⟩
  | .hbm, ⟨40, _⟩ => ⟨S16384x32x3, .f32⟩
  | .hbm, ⟨41, _⟩ => ⟨S16384x1x3, .f32⟩
  | .hbm, ⟨42, _⟩ => ⟨S16384x32x3, .f32⟩
  | .hbm, ⟨43, _⟩ => ⟨S16384x32x3, .f32⟩
  | .hbm, ⟨44, _⟩ => ⟨S_, .i32⟩
  | .hbm, ⟨45, _⟩ => ⟨S16384x32, .i32⟩
  | .hbm, ⟨46, _⟩ => ⟨S16384x32, .i1⟩
  | .hbm, ⟨47, _⟩ => ⟨S_, .i32⟩
  | .hbm, ⟨48, _⟩ => ⟨S16384x32, .i32⟩
  | .hbm, ⟨49, _⟩ => ⟨S16384x32, .i32⟩
  | .hbm, ⟨50, _⟩ => ⟨S16384x32, .i32⟩
  | .hbm, ⟨51, _⟩ => ⟨S16384x32x1, .i32⟩
  | .hbm, ⟨52, _⟩ => ⟨S16384x32x64, .f32⟩
  | .hbm, ⟨53, _⟩ => ⟨S16384x32x67, .f32⟩
  | .hbm, ⟨54, _⟩ => ⟨S16384x32x64, .f32⟩
  | .hbm, ⟨55, _⟩ => ⟨S1x1x64, .f32⟩
  | .hbm, ⟨56, _⟩ => ⟨S16384x32x64, .f32⟩
  | .hbm, ⟨57, _⟩ => ⟨S16384x32x64, .f32⟩
  | .hbm, ⟨58, _⟩ => ⟨S1x1x64, .f32⟩
  | .hbm, ⟨59, _⟩ => ⟨S16384x32x64, .f32⟩
  | .hbm, ⟨60, _⟩ => ⟨S16384x32x64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S1x1x64, .f32⟩
  | .hbm, ⟨67, _⟩ => ⟨S16384x32x64, .f32⟩
  | .hbm, ⟨68, _⟩ => ⟨S16384x32x64, .f32⟩
  | .hbm, ⟨69, _⟩ => ⟨S1x1x64, .f32⟩
  | .hbm, ⟨70, _⟩ => ⟨S16384x32x64, .f32⟩
  | .hbm, ⟨71, _⟩ => ⟨S16384x32x64, .f32⟩
  | .hbm, ⟨72, _⟩ => ⟨S_, .f32⟩
  | .hbm, ⟨73, _⟩ => ⟨S16384x32x64, .f32⟩
  | .hbm, ⟨74, _⟩ => ⟨S16384x32x64, .f32⟩
  | .hbm, ⟨75, _⟩ => ⟨S16384x32x64, .f32⟩
  | .hbm, ⟨76, _⟩ => ⟨S1x1x64, .f32⟩
  | .hbm, ⟨77, _⟩ => ⟨S16384x32x64, .f32⟩
  | .hbm, ⟨78, _⟩ => ⟨S16384x32x64, .f32⟩
  | .hbm, ⟨79, _⟩ => ⟨S1x1x64, .f32⟩
  | .hbm, ⟨80, _⟩ => ⟨S16384x32x64, .f32⟩
  | .hbm, ⟨81, _⟩ => ⟨S16384x32x64, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S64, .f32⟩
  | .hbm, ⟨86, _⟩ => ⟨S64, .f32⟩
  | .hbm, ⟨87, _⟩ => ⟨S1x1x64, .f32⟩
  | .hbm, ⟨88, _⟩ => ⟨S16384x32x64, .f32⟩
  | .hbm, ⟨89, _⟩ => ⟨S16384x32x64, .f32⟩
  | .hbm, ⟨90, _⟩ => ⟨S1x1x64, .f32⟩
  | .hbm, ⟨91, _⟩ => ⟨S16384x32x64, .f32⟩
  | .hbm, ⟨92, _⟩ => ⟨S16384x32x64, .f32⟩
  | .hbm, ⟨93, _⟩ => ⟨S_, .f32⟩
  | .hbm, ⟨94, _⟩ => ⟨S16384x32x64, .f32⟩
  | .hbm, ⟨95, _⟩ => ⟨S16384x32x64, .f32⟩
  | .hbm, ⟨96, _⟩ => ⟨S16384x32x128, .f32⟩
  | .hbm, ⟨97, _⟩ => ⟨S1x1x128, .f32⟩
  | .hbm, ⟨98, _⟩ => ⟨S16384x32x128, .f32⟩
  | .hbm, ⟨99, _⟩ => ⟨S16384x32x128, .f32⟩
  | .hbm, ⟨100, _⟩ => ⟨S1x1x128, .f32⟩
  | .hbm, ⟨101, _⟩ => ⟨S16384x32x128, .f32⟩
  | .hbm, ⟨102, _⟩ => ⟨S16384x32x128, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S128, .f32⟩
  | .hbm, ⟨107, _⟩ => ⟨S128, .f32⟩
  | .hbm, ⟨108, _⟩ => ⟨S1x1x128, .f32⟩
  | .hbm, ⟨109, _⟩ => ⟨S16384x32x128, .f32⟩
  | .hbm, ⟨110, _⟩ => ⟨S16384x32x128, .f32⟩
  | .hbm, ⟨111, _⟩ => ⟨S1x1x128, .f32⟩
  | .hbm, ⟨112, _⟩ => ⟨S16384x32x128, .f32⟩
  | .hbm, ⟨113, _⟩ => ⟨S16384x32x128, .f32⟩
  | .hbm, ⟨114, _⟩ => ⟨S_, .f32⟩
  | .hbm, ⟨115, _⟩ => ⟨S16384x32x128, .f32⟩
  | .hbm, ⟨116, _⟩ => ⟨S16384x32x128, .f32⟩
  | .hbm, ⟨117, _⟩ => ⟨S_, .f32⟩
  | .hbm, ⟨118, _⟩ => ⟨S16384x128, .f32⟩
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_c_0 : Ref sig .tc := ⟨.hbm, 23, rfl⟩
abbrev main_v0 : Ref sig .tc := ⟨.hbm, 24, rfl⟩
abbrev main_v1 : Ref sig .tc := ⟨.hbm, 25, rfl⟩
abbrev main_c_1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_v18 : Ref sig .tc := ⟨.hbm, 46, rfl⟩
abbrev main_c_5 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_call0_cst : Ref sig .tc := ⟨.hbm, 72, rfl⟩
abbrev main_call0_v0 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_6 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_call1_cst : Ref sig .tc := ⟨.hbm, 93, rfl⟩
abbrev main_call1_v0 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_7 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_call2_cst : Ref sig .tc := ⟨.hbm, 114, rfl⟩
abbrev main_call2_v0 : Ref sig .tc := ⟨.hbm, 115, rfl⟩
abbrev main_v78 : Ref sig .tc := ⟨.hbm, 116, rfl⟩
abbrev main_cst_8 : Ref sig .tc := ⟨.hbm, 117, rfl⟩
abbrev main_v79 : Ref sig .tc := ⟨.hbm, 118, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  bcast_S16384x3_S16384x1x3_0_2 : S16384x3.BroadcastsInDim S16384x1x3 (![0, 2] : Fin 2 → Fin S16384x1x3.rank)
  bcast_S16384x1x3_S16384x32x3_0_1_2 : S16384x1x3.BroadcastsInDim S16384x32x3 (![0, 1, 2] : Fin 3 → Fin S16384x32x3.rank)
  concatenates_S16384x32x3_S16384x32x64_S16384x32x67_d2 : Shape.Concatenates [S16384x32x3, S16384x32x64] S16384x32x67 2
  bcast_S64_S1x1x64_2 : S64.BroadcastsInDim S1x1x64 (![2] : Fin 1 → Fin S1x1x64.rank)
  bcast_S1x1x64_S16384x32x64_0_1_2 : S1x1x64.BroadcastsInDim S16384x32x64 (![0, 1, 2] : Fin 3 → Fin S16384x32x64.rank)
  bcast_S_S64 : S_.BroadcastsInDim S64 (![] : Fin 0 → Fin S64.rank)
  bcast_S_S16384x32x64 : S_.BroadcastsInDim S16384x32x64 (![] : Fin 0 → Fin S16384x32x64.rank)
  bcast_S128_S1x1x128_2 : S128.BroadcastsInDim S1x1x128 (![2] : Fin 1 → Fin S1x1x128.rank)
  bcast_S1x1x128_S16384x32x128_0_1_2 : S1x1x128.BroadcastsInDim S16384x32x128 (![0, 1, 2] : Fin 3 → Fin S16384x32x128.rank)
  bcast_S_S128 : S_.BroadcastsInDim S128 (![] : Fin 0 → Fin S128.rank)
  bcast_S_S16384x32x128 : S_.BroadcastsInDim S16384x32x128 (![] : Fin 0 → Fin S16384x32x128.rank)
  reducesTo_S16384x32x128_S16384x128_d1 : S16384x32x128.ReducesTo [1] S16384x128
  h_S_ : 0 < S_.numel
  gather_S65536x3_S16384x1_S16384x3_1_0_n_n_0_1_13_wf : GatherDims.WF S65536x3 S16384x1 S16384x3 [1] [0] [] [0] [] 1 ![1, 3]
  gather_S65536x3_S16384x32x1_S16384x32x3_2_0_n_n_0_2_13_wf : GatherDims.WF S65536x3 S16384x32x1 S16384x32x3 [2] [0] [] [0] [] 2 ![1, 3]
  gather_S65536x64_S16384x32x1_S16384x32x64_2_0_n_n_0_2_164_wf : GatherDims.WF S65536x64 S16384x32x1 S16384x32x64 [2] [0] [] [0] [] 2 ![1, 64]
  dot_S16384x32x67_S64x67_S16384x32x64_2_1_01_0_n_n_wf : DotDims.WF S16384x32x67 S64x67 S16384x32x64 [2] [1] [0, 1] [0] [] []
  dot_S16384x32x64_S64x64_S16384x32x64_2_1_01_0_n_n_wf : DotDims.WF S16384x32x64 S64x64 S16384x32x64 [2] [1] [0, 1] [0] [] []
  dot_S16384x32x64_S128x64_S16384x32x128_2_1_01_0_n_n_wf : DotDims.WF S16384x32x64 S128x64 S16384x32x128 [2] [1] [0, 1] [0] [] []

variable [Facts₀]

def gather_S65536x3_S16384x1_S16384x3_1_0_n_n_0_1_13 : GatherDims S65536x3 S16384x1 S16384x3 where
  offsetDims := [1]
  collapsedSliceDims := [0]
  operandBatchingDims := []
  startIndicesBatchingDims := []
  startIndexMap := [0]
  indexVectorDim := 1
  sliceSizes := ![1, 3]
  wf := gather_S65536x3_S16384x1_S16384x3_1_0_n_n_0_1_13_wf
def gather_S65536x3_S16384x32x1_S16384x32x3_2_0_n_n_0_2_13 : GatherDims S65536x3 S16384x32x1 S16384x32x3 where
  offsetDims := [2]
  collapsedSliceDims := [0]
  operandBatchingDims := []
  startIndicesBatchingDims := []
  startIndexMap := [0]
  indexVectorDim := 2
  sliceSizes := ![1, 3]
  wf := gather_S65536x3_S16384x32x1_S16384x32x3_2_0_n_n_0_2_13_wf
def gather_S65536x64_S16384x32x1_S16384x32x64_2_0_n_n_0_2_164 : GatherDims S65536x64 S16384x32x1 S16384x32x64 where
  offsetDims := [2]
  collapsedSliceDims := [0]
  operandBatchingDims := []
  startIndicesBatchingDims := []
  startIndexMap := [0]
  indexVectorDim := 2
  sliceSizes := ![1, 64]
  wf := gather_S65536x64_S16384x32x1_S16384x32x64_2_0_n_n_0_2_164_wf
def dot_S16384x32x67_S64x67_S16384x32x64_2_1_01_0_n_n : DotDims S16384x32x67 S64x67 S16384x32x64 where
  lhsContracting := [2]
  rhsContracting := [1]
  lhsNonContracting := [0, 1]
  rhsNonContracting := [0]
  lhsBatch := []
  rhsBatch := []
  wf := dot_S16384x32x67_S64x67_S16384x32x64_2_1_01_0_n_n_wf
def dot_S16384x32x64_S64x64_S16384x32x64_2_1_01_0_n_n : DotDims S16384x32x64 S64x64 S16384x32x64 where
  lhsContracting := [2]
  rhsContracting := [1]
  lhsNonContracting := [0, 1]
  rhsNonContracting := [0]
  lhsBatch := []
  rhsBatch := []
  wf := dot_S16384x32x64_S64x64_S16384x32x64_2_1_01_0_n_n_wf
def dot_S16384x32x64_S128x64_S16384x32x128_2_1_01_0_n_n : DotDims S16384x32x64 S128x64 S16384x32x128 where
  lhsContracting := [2]
  rhsContracting := [1]
  lhsNonContracting := [0, 1]
  rhsNonContracting := [0]
  lhsBatch := []
  rhsBatch := []
  wf := dot_S16384x32x64_S128x64_S16384x32x128_2_1_01_0_n_n_wf

class Facts : Prop extends Facts₀ where

variable [Facts]
-- ==== Proof.LibReal.lean ====
/-
  Reals inside the extended reals, and the finiteness precondition read back.

  General facts, independent of any program: the cast of a finite sum of reals; the f32 pattern of -∞; an extended
  real whose absolute value is below +∞ is a real; and one conjunct of a printed "all inputs finite" precondition —
  an and-reduce to a scalar of the elementwise test |x| < +∞ that came out 1 — makes every entry of the array a real.
-/
import Idealize.ShloMosaic.PureOps.Ideal
import Idealize.ShloMosaic.PureOps.Ideal.Laws
import Idealize.ShloMosaic.Lib.ReduceAll
import Idealize.ShloMosaic.Lib.Pipeline.Value
import Idealize.ShloMosaic.Lib.ValueIdx

noncomputable section

open scoped BigOperators

namespace Cert.LibReal

open Idealize.ShloMosaic Idealize.ShloMosaic.ValueIdx

/-- An extended real that is a real. -/
def IsReal (x : EReal) : Prop := ∃ r : ℝ, x = (r : EReal)

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The f32 pattern of -∞ is the bottom of the extended reals. -/
theorem ofBits_negInf_f32 : Ideal.ofBits .f32 0xFF800000#32 = ⊥ := by simp [Ideal.ofBits, Ideal.ieee]

/-- The f32 pattern of +∞ is the top of the extended reals. -/
theorem ofBits_posInf_f32 : Ideal.ofBits .f32 0x7F800000#32 = ⊤ := by simp [Ideal.ofBits, Ideal.ieee]

/-- The scalar shape has one index. -/
instance : Subsingleton (⟨0, ![]⟩ : Shape).Idx := ⟨fun a b => funext fun d => d.elim0⟩

/-- An extended real whose absolute value is below +∞ is a real. -/
theorem isReal_of_abs_lt_top (x : EReal) (h : max x (-x) < ⊤) : IsReal x := by
  induction x using EReal.rec with
  | bot => simp at h
  | top => simp at h
  | coe r => exact ⟨r, rfl⟩

/-- One conjunct of a finiteness precondition: an and-reduce to a scalar of "|x| < +∞" that is 1 makes every entry of
    x a real, at any shape and whichever axes the reduce names. -/
theorem isReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) (i : s.Idx) : IsReal (x i) := by
  have h1 := Host.reduce_andi_all _ _ hr hu ix0 e i
  rw [cmpf_apply, broadcastInDim_apply ![] hb _ i ix0 (fun a => a.elim0)] at h1
  have h3 : Ideal.cmp .olt (max (x i) (-(x i))) (Ideal.ofBits .f32 0x7F800000#32) = 1#1 := h1
  rw [ofBits_posInf_f32] at h3
  refine isReal_of_abs_lt_top _ ?_
  by_contra hn
  unfold Ideal.cmp at h3
  simp [hn] at h3

end Cert.LibReal

end
-- ==== Proof.Spec.lean ====
/-
  The mathematics of the set-abstraction layer, free of any program.

  A point's feature row passes through three shared layers, each a linear map followed by an
  inference-time batch normalisation and a rectifier, and the 32 neighbours of a centre are then pooled
  by a maximum. The reference writes a layer as  max(((x·Wᵀ + b) − μ)·(g·rsqrt(σ² + ε)) + β, 0);
  the kernel folds the normalisation into one scale s = g·rsqrt(σ² + ε) and one bias (b − μ)·s + β and
  computes  max((x·Wᵀ)·s + bias, 0). The two agree when every number involved is a real: the step
  between them is distributivity, which on the extended reals needs finiteness, and s is a real as
  soon as σ² ≥ 0 (so that σ² + ε > 0 and the reciprocal square root is an ordinary real).
-/
import Idealize.ShloMosaic.PureOps.Ideal
import Idealize.ShloMosaic.PureOps.Ideal.Laws
import Idealize.ShloMosaic.Lib.ValueIdx
import proofs.«410673_j69329362092243_3_alg».proof.Proof.LibReal

noncomputable section

open scoped BigOperators

namespace Cert.SetAbs

open Idealize.ShloMosaic Idealize.ShloMosaic.ValueIdx
open Cert.LibReal (IsReal)

/-! ## Reals among the extended reals -/

theorem isReal_zero : IsReal 0 := ⟨0, rfl⟩

theorem _root_.Cert.LibReal.IsReal.add {x y : EReal} (hx : IsReal x) (hy : IsReal y) : IsReal (x + y) := by
  obtain ⟨a, rfl⟩ := hx; obtain ⟨b, rfl⟩ := hy; exact ⟨a + b, (EReal.coe_add a b).symm⟩

theorem _root_.Cert.LibReal.IsReal.sub {x y : EReal} (hx : IsReal x) (hy : IsReal y) : IsReal (x - y) := by
  obtain ⟨a, rfl⟩ := hx; obtain ⟨b, rfl⟩ := hy; exact ⟨a - b, (EReal.coe_sub a b).symm⟩

theorem _root_.Cert.LibReal.IsReal.mul {x y : EReal} (hx : IsReal x) (hy : IsReal y) : IsReal (x * y) := by
  obtain ⟨a, rfl⟩ := hx; obtain ⟨b, rfl⟩ := hy; exact ⟨a * b, (EReal.coe_mul a b).symm⟩

theorem _root_.Cert.LibReal.IsReal.max {x y : EReal} (hx : IsReal x) (hy : IsReal y) : IsReal (max x y) := by
  rcases max_choice x y with h | h <;> rw [h] <;> assumption

theorem _root_.Cert.LibReal.IsReal.sum {ι : Type*} (s : Finset ι) (f : ι → EReal) (h : ∀ i, IsReal (f i)) : IsReal (∑ i ∈ s, f i) := by
  choose r hr using h
  exact ⟨∑ i ∈ s, r i, by rw [Cert.LibReal.coe_sum]; exact Finset.sum_congr rfl fun i _ => hr i⟩

/-- Distributivity, the one law between the two spellings of a layer: it holds among reals. -/
theorem affine_fold {X b mu s be : EReal} (hX : IsReal X) (hb : IsReal b) (hmu : IsReal mu) (hs : IsReal s)
    (hbe : IsReal be) : X * s + ((b - mu) * s + be) = (X + b - mu) * s + be := by
  obtain ⟨X, rfl⟩ := hX; obtain ⟨b, rfl⟩ := hb; obtain ⟨mu, rfl⟩ := hmu; obtain ⟨s, rfl⟩ := hs
  obtain ⟨be, rfl⟩ := hbe
  simp only [← EReal.coe_mul, ← EReal.coe_add, ← EReal.coe_sub]
  congr 1; ring

/-! ## The batch-norm epsilon -/

/-- The batch-norm epsilon, the f32 nearest 1e-5, as both programs carry it. -/
def eps : EReal := Ideal.ofBits .f32 0x3727C5AC#32

/-- It is a positive real. -/
theorem eps_real : ∃ e : ℝ, 0 < e ∧ eps = (e : EReal) := by
  unfold eps
  simp [Ideal.ofBits, Ideal.ieee, -EReal.coe_mul]

/-- The reciprocal square root of a non-negative real plus epsilon is a real. -/
theorem rsqrt_real {v : EReal} (hv : IsReal v) (h0 : 0 ≤ v) : IsReal (Ideal.rsqrt (v + eps)) := by
  obtain ⟨r, rfl⟩ := hv
  obtain ⟨e, he, hee⟩ := eps_real
  have hr : 0 ≤ r := EReal.coe_nonneg.mp h0
  rw [hee, ← EReal.coe_add, Ideal.rsqrt_coe, if_neg (not_lt.mpr (by linarith)), if_neg (ne_of_gt (by linarith))]
  exact ⟨_, rfl⟩

/-! ## One layer, in the reference's spelling and in the kernel's -/

/-- A layer's parameters as the operator receives them: the weight matrix (output channel × input
    channel) and, per output channel, the bias, the normalisation's gain, shift, running mean and
    running variance. -/
structure Layer (K O : ℕ) where
  W : Fin O → Fin K → EReal
  b : Fin O → EReal
  g : Fin O → EReal
  be : Fin O → EReal
  mu : Fin O → EReal
  var : Fin O → EReal

/-- What the kernel is handed for a layer: the transposed weights, one scale and one bias per channel. -/
structure Folded (K O : ℕ) where
  WT : Fin K → Fin O → EReal
  s : Fin O → EReal
  bi : Fin O → EReal

variable {K O : ℕ}

/-- The normalisation's scale g · rsqrt(σ² + ε). -/
def Layer.scale (L : Layer K O) (o : Fin O) : EReal := L.g o * Ideal.rsqrt (L.var o + eps)

/-- Folding a layer: transpose the weights, scale g·rsqrt(σ²+ε), bias (b − μ)·scale + β. -/
def Layer.fold (L : Layer K O) : Folded K O :=
  ⟨fun k o => L.W o k, L.scale, fun o => (L.b o - L.mu o) * L.scale o + L.be o⟩

/-- The layer as the reference computes it on one feature row. -/
def Layer.ref (L : Layer K O) (x : Fin K → EReal) (o : Fin O) : EReal :=
  max (((∑ k, x k * L.W o k) + L.b o - L.mu o) * L.scale o + L.be o) 0

/-- The layer as the kernel computes it on one feature row. -/
def Folded.ker (P : Folded K O) (x : Fin K → EReal) (o : Fin O) : EReal :=
  max ((∑ k, x k * P.WT k o) * P.s o + P.bi o) 0

/-- Every parameter a real, every variance non-negative. -/
structure Layer.Real (L : Layer K O) : Prop where
  W : ∀ o k, IsReal (L.W o k)
  b : ∀ o, IsReal (L.b o)
  g : ∀ o, IsReal (L.g o)
  be : ∀ o, IsReal (L.be o)
  mu : ∀ o, IsReal (L.mu o)
  var : ∀ o, IsReal (L.var o)
  var_nonneg : ∀ o, 0 ≤ L.var o

theorem Layer.scale_real {L : Layer K O} (h : L.Real) (o : Fin O) : IsReal (L.scale o) :=
  (h.g o).mul (rsqrt_real (h.var o) (h.var_nonneg o))

theorem Layer.dot_real {L : Layer K O} (h : L.Real) {x : Fin K → EReal} (hx : ∀ k, IsReal (x k)) (o : Fin O) :
    IsReal (∑ k, x k * L.W o k) :=
  IsReal.sum _ _ fun k => (hx k).mul (h.W o k)

/-- On a row of reals, with real parameters and non-negative variances, the folded layer is the layer. -/
theorem Layer.fold_ker {L : Layer K O} (h : L.Real) {x : Fin K → EReal} (hx : ∀ k, IsReal (x k)) :
    L.fold.ker x = L.ref x := by
  funext o
  unfold Folded.ker Layer.ref Layer.fold
  dsimp only
  rw [affine_fold (Layer.dot_real h hx o) (h.b o) (h.mu o) (Layer.scale_real h o) (h.be o)]

/-- and its result is again a row of reals. -/
theorem Layer.ref_real {L : Layer K O} (h : L.Real) {x : Fin K → EReal} (hx : ∀ k, IsReal (x k)) (o : Fin O) :
    IsReal (L.ref x o) :=
  (((((Layer.dot_real h hx o).add (h.b o)).sub (h.mu o)).mul (Layer.scale_real h o)).add (h.be o)).max isReal_zero

/-! ## The three layers and the pooling -/

/-- The reference's three layers on one feature row. -/
def mlpRef (L0 : Layer 67 64) (L1 : Layer 64 64) (L2 : Layer 64 128) (x : Fin 67 → EReal) : Fin 128 → EReal :=
  L2.ref (L1.ref (L0.ref x))

/-- The kernel's three layers on one feature row. -/
def mlpKer (P0 : Folded 67 64) (P1 : Folded 64 64) (P2 : Folded 64 128) (x : Fin 67 → EReal) : Fin 128 → EReal :=
  P2.ker (P1.ker (P0.ker x))

theorem mlp_fold {L0 : Layer 67 64} {L1 : Layer 64 64} {L2 : Layer 64 128} (h0 : L0.Real) (h1 : L1.Real) (h2 : L2.Real)
    {x : Fin 67 → EReal} (hx : ∀ k, IsReal (x k)) : mlpKer L0.fold L1.fold L2.fold x = mlpRef L0 L1 L2 x := by
  unfold mlpKer mlpRef
  rw [Layer.fold_ker h0 hx, Layer.fold_ker h1 (Layer.ref_real h0 hx), Layer.fold_ker h2 (Layer.ref_real h1 (Layer.ref_real h0 hx))]

/-- The maximum over a centre's 32 neighbours, from −∞. -/
def pool (f : Fin 32 → EReal) : EReal := (Finset.univ : Finset (Fin 32)).fold max ⊥ f

/-! ## Arrays as parameters -/

/-- A layer's parameters read off the operator's argument arrays. -/
def layerOf (w : (⟨2, ![O, K]⟩ : Shape).Idx → EReal) (b g be mu var : (⟨1, ![O]⟩ : Shape).Idx → EReal) : Layer K O :=
  ⟨fun o k => w (ix2 o k), fun o => b (ix1 o), fun o => g (ix1 o), fun o => be (ix1 o), fun o => mu (ix1 o),
    fun o => var (ix1 o)⟩

/-- The kernel's per-layer operands read off its three blocks: transposed weights [K, O], scale and bias rows [1, O]. -/
def foldedOf (wt : (⟨2, ![K, O]⟩ : Shape).Idx → EReal) (s bi : (⟨2, ![1, O]⟩ : Shape).Idx → EReal) : Folded K O :=
  ⟨fun k o => wt (ix2 k o), fun o => s (ix2 0 o), fun o => bi (ix2 0 o)⟩

theorem layerOf_real {w : (⟨2, ![O, K]⟩ : Shape).Idx → EReal} {b g be mu var : (⟨1, ![O]⟩ : Shape).Idx → EReal}
    (hw : ∀ i, IsReal (w i)) (hb : ∀ i, IsReal (b i)) (hg : ∀ i, IsReal (g i)) (hbe : ∀ i, IsReal (be i))
    (hmu : ∀ i, IsReal (mu i)) (hvar : ∀ i, IsReal (var i)) (hpos : ∀ i, 0 ≤ var i) : (layerOf w b g be mu var).Real :=
  ⟨fun o k => hw _, fun o => hb _, fun o => hg _, fun o => hbe _, fun o => hmu _, fun o => hvar _, fun o => hpos _⟩

end Cert.SetAbs

end
-- ==== Proof.KerHost.lean ====
/-
  The arrays the kernel's one region finds, read as functions of the operator's arguments.

  Before the region the host gathers and concatenates the neighbours' features (the same operations, in the
  same order, as the reference performs), and folds each layer's normalisation: the weight matrix
  transposed, the scale g·rsqrt(σ² + ε) and the bias (b − μ)·scale + β, each laid out as a row [1, O].
  Read at an index these three arrays are exactly the folded layer of the specification.
-/
import proofs.«410673_j69329362092243_3_alg».proof.Proof.Gen.KernelIdeal.Frame
import proofs.«410673_j69329362092243_3_alg».proof.Proof.Gen.ReferenceIdeal.Read
import proofs.«410673_j69329362092243_3_alg».proof.Proof.Spec
import Idealize.ShloMosaic.Lib.Pipeline.Value
import Idealize.ShloMosaic.Lib.ValueIdx
import Idealize.ShloMosaic.Lib.StableHlo.Run

noncomputable section

namespace Cert.SetAbs.KerHost

open Cert.KernelIdeal Cert.KernelIdeal.Gen Idealize.ShloMosaic Idealize.ShloMosaic.TcCoe Idealize.SL.Sem
open Idealize.ShloMosaic.ValueIdx Idealize.ShloMosaic.StableHlo
open Cert.SetAbs

/-! ## Two layout operations read at an index -/

/-- A matrix transpose read at (k, o) is the matrix at (o, k). -/
theorem transpose_at {α : Type} {K O : ℕ} (x : (⟨2, ![O, K]⟩ : Shape).Idx → α)
    (h : (⟨2, ![O, K]⟩ : Shape).Transposes [1, 0] ⟨2, ![K, O]⟩) (k : Fin K) (o : Fin O) :
    transpose ⟨2, ![K, O]⟩ [1, 0] x h (ix2 k o) = x (ix2 o k) :=
  transpose_apply [1, 0] x h (ix2 k o) (ix2 o k) (fun b => match b with | ⟨0, _⟩ => rfl | ⟨1, _⟩ => rfl)

/-- A vector laid out as a one-row matrix, read at (0, o), is the vector at o. -/
theorem row_at {α : Type} {O : ℕ} (v : (⟨1, ![O]⟩ : Shape).Idx → α) (h : (⟨1, ![O]⟩ : Shape).ShapeCasts ⟨2, ![1, O]⟩)
    (o : Fin O) : shapeCast ⟨2, ![1, O]⟩ v h (ix2 0 o) = v (ix1 o) :=
  shapeCast_apply v h (ix2 0 o) (ix1 o) (by
    rw [Shape.rowMajor_val_one, Shape.rowMajor_val_two]
    show o.val = 0 * O + o.val
    omega)

variable (m : (ℓ : Loc nD τ sig) → Buf (Elt Ideal) ℓ) (c : Dev nD)

/-- The operator's float parameter arrays, as functions from their literal index types to the extended reals. -/
abbrev A4 : S64x67.Idx → EReal := m ((c : Thread nD τ).loc main_arg4)
abbrev A5 : S64.Idx → EReal := m ((c : Thread nD τ).loc main_arg5)
abbrev A6 : S64.Idx → EReal := m ((c : Thread nD τ).loc main_arg6)
abbrev A7 : S64.Idx → EReal := m ((c : Thread nD τ).loc main_arg7)
abbrev A8 : S64.Idx → EReal := m ((c : Thread nD τ).loc main_arg8)
abbrev A9 : S64.Idx → EReal := m ((c : Thread nD τ).loc main_arg9)
abbrev A10 : S64x64.Idx → EReal := m ((c : Thread nD τ).loc main_arg10)
abbrev A11 : S64.Idx → EReal := m ((c : Thread nD τ).loc main_arg11)
abbrev A12 : S64.Idx → EReal := m ((c : Thread nD τ).loc main_arg12)
abbrev A13 : S64.Idx → EReal := m ((c : Thread nD τ).loc main_arg13)
abbrev A14 : S64.Idx → EReal := m ((c : Thread nD τ).loc main_arg14)
abbrev A15 : S64.Idx → EReal := m ((c : Thread nD τ).loc main_arg15)
abbrev A16 : S128x64.Idx → EReal := m ((c : Thread nD τ).loc main_arg16)
abbrev A17 : S128.Idx → EReal := m ((c : Thread nD τ).loc main_arg17)
abbrev A18 : S128.Idx → EReal := m ((c : Thread nD τ).loc main_arg18)
abbrev A19 : S128.Idx → EReal := m ((c : Thread nD τ).loc main_arg19)
abbrev A20 : S128.Idx → EReal := m ((c : Thread nD τ).loc main_arg20)
abbrev A21 : S128.Idx → EReal := m ((c : Thread nD τ).loc main_arg21)

/-! ## The gathered input, the gathered centres and the count -/

set_option maxHeartbeats 4000000 in
/-- The gathered and concatenated input is the same composition of host operations as the reference's. -/
theorem hin_eq : (V m c main_v24 : FVec Ideal S16384x32x67 .f32)
    = Cert.ReferenceIdeal.Read.val_main_v24 (F := Ideal) (m ((c : Thread nD τ).loc main_arg0)) (m ((c : Thread nD τ).loc main_arg1)) (m ((c : Thread nD τ).loc main_arg2)) (m ((c : Thread nD τ).loc main_arg3)) := by
  dsimp only [V, hostOps0]
  after_results_simp <;> rfl

set_option maxHeartbeats 4000000 in
/-- So are the gathered centre coordinates, the program's first result. -/
theorem centres_eq : (V m c main_v6 : FVec Ideal S16384x3 .f32)
    = Cert.ReferenceIdeal.Read.val_main_v6 (F := Ideal) (m ((c : Thread nD τ).loc main_arg0)) (m ((c : Thread nD τ).loc main_arg2)) := by
  dsimp only [V, hostOps0]
  after_results_simp <;> rfl

set_option maxHeartbeats 4000000 in
/-- The third result is the constant count of centres. -/
theorem count_eq : (V m c main_c : IVec S1 32) = constantI S1 32 16384#32 := by
  dsimp only [V, hostOps0]
  after_results_simp <;> rfl

/-! ### Layer 0 -/

set_option maxHeartbeats 4000000 in
theorem weights0_eq : (V m c main_v32 : FVec Ideal S67x64 .f32) = transpose S67x64 [1, 0] (A4 m c) transposes_S64x67_S67x64_1_0 := by
  dsimp only [V, hostOps0]
  after_results_simp <;> rfl

set_option maxHeartbeats 4000000 in
theorem scale0_eq : (V m c main_v33 : FVec Ideal S1x64 .f32) = shapeCast S1x64 (mulf (A6 m c) (Host.rsqrt (addf (A9 m c) (broadcastInDim S64 ![] bcast_S_S64 (constant (F := Ideal) S_ .f32 0x3727C5AC#32))))) shapeCasts_S64_S1x64 := by
  dsimp only [V, hostOps0]
  after_results_simp <;> rfl

set_option maxHeartbeats 4000000 in
theorem bias0_eq : (V m c main_v34 : FVec Ideal S1x64 .f32) = shapeCast S1x64 (addf (mulf (subf (A5 m c) (A8 m c)) (mulf (A6 m c) (Host.rsqrt (addf (A9 m c) (broadcastInDim S64 ![] bcast_S_S64 (constant (F := Ideal) S_ .f32 0x3727C5AC#32)))))) (A7 m c)) shapeCasts_S64_S1x64 := by
  dsimp only [V, hostOps0]
  after_results_simp <;> rfl

/-- The three arrays the region finds for layer 0 are the folded layer of the operator's arguments. -/
theorem fold0_eq : foldedOf (K := 67) (O := 64) (V m c main_v32) (V m c main_v33) (V m c main_v34)
    = (layerOf (K := 67) (O := 64) (A4 m c) (A5 m c) (A6 m c) (A7 m c) (A8 m c) (A9 m c)).fold := by
  have hW : (fun (k : Fin 67) (o : Fin 64) => (V m c main_v32 : FVec Ideal S67x64 .f32) (ix2 k o)) = fun k o => (A4 m c) (ix2 o k) := by
    funext k o
    rw [weights0_eq]
    exact transpose_at _ _ k o
  have hs : (fun (o : Fin 64) => (V m c main_v33 : FVec Ideal S1x64 .f32) (ix2 0 o))
      = fun o => (A6 m c) (ix1 o) * Ideal.rsqrt ((A9 m c) (ix1 o) + eps) := by
    funext o
    rw [scale0_eq, row_at]
    rfl
  have hb : (fun (o : Fin 64) => (V m c main_v34 : FVec Ideal S1x64 .f32) (ix2 0 o))
      = fun o => ((A5 m c) (ix1 o) - (A8 m c) (ix1 o)) * ((A6 m c) (ix1 o) * Ideal.rsqrt ((A9 m c) (ix1 o) + eps)) + (A7 m c) (ix1 o) := by
    funext o
    rw [bias0_eq, row_at]
    rfl
  show Folded.mk _ _ _ = Folded.mk _ _ _
  rw [hW, hs, hb]
  rfl

/-! ### Layer 1 -/

set_option maxHeartbeats 4000000 in
theorem weights1_eq : (V m c main_v42 : FVec Ideal S64x64 .f32) = transpose S64x64 [1, 0] (A10 m c) transposes_S64x64_S64x64_1_0 := by
  dsimp only [V, hostOps0]
  after_results_simp <;> rfl

set_option maxHeartbeats 4000000 in
theorem scale1_eq : (V m c main_v43 : FVec Ideal S1x64 .f32) = shapeCast S1x64 (mulf (A12 m c) (Host.rsqrt (addf (A15 m c) (broadcastInDim S64 ![] bcast_S_S64 (constant (F := Ideal) S_ .f32 0x3727C5AC#32))))) shapeCasts_S64_S1x64 := by
  dsimp only [V, hostOps0]
  after_results_simp <;> rfl

set_option maxHeartbeats 4000000 in
theorem bias1_eq : (V m c main_v44 : FVec Ideal S1x64 .f32) = shapeCast S1x64 (addf (mulf (subf (A11 m c) (A14 m c)) (mulf (A12 m c) (Host.rsqrt (addf (A15 m c) (broadcastInDim S64 ![] bcast_S_S64 (constant (F := Ideal) S_ .f32 0x3727C5AC#32)))))) (A13 m c)) shapeCasts_S64_S1x64 := by
  dsimp only [V, hostOps0]
  after_results_simp <;> rfl

/-- The three arrays the region finds for layer 1 are the folded layer of the operator's arguments. -/
theorem fold1_eq : foldedOf (K := 64) (O := 64) (V m c main_v42) (V m c main_v43) (V m c main_v44)
    = (layerOf (K := 64) (O := 64) (A10 m c) (A11 m c) (A12 m c) (A13 m c) (A14 m c) (A15 m c)).fold := by
  have hW : (fun (k : Fin 64) (o : Fin 64) => (V m c main_v42 : FVec Ideal S64x64 .f32) (ix2 k o)) = fun k o => (A10 m c) (ix2 o k) := by
    funext k o
    rw [weights1_eq]
    exact transpose_at _ _ k o
  have hs : (fun (o : Fin 64) => (V m c main_v43 : FVec Ideal S1x64 .f32) (ix2 0 o))
      = fun o => (A12 m c) (ix1 o) * Ideal.rsqrt ((A15 m c) (ix1 o) + eps) := by
    funext o
    rw [scale1_eq, row_at]
    rfl
  have hb : (fun (o : Fin 64) => (V m c main_v44 : FVec Ideal S1x64 .f32) (ix2 0 o))
      = fun o => ((A11 m c) (ix1 o) - (A14 m c) (ix1 o)) * ((A12 m c) (ix1 o) * Ideal.rsqrt ((A15 m c) (ix1 o) + eps)) + (A13 m c) (ix1 o) := by
    funext o
    rw [bias1_eq, row_at]
    rfl
  show Folded.mk _ _ _ = Folded.mk _ _ _
  rw [hW, hs, hb]
  rfl

/-! ### Layer 2 -/

set_option maxHeartbeats 4000000 in
theorem weights2_eq : (V m c main_v52 : FVec Ideal S64x128 .f32) = transpose S64x128 [1, 0] (A16 m c) transposes_S128x64_S64x128_1_0 := by
  dsimp only [V, hostOps0]
  after_results_simp <;> rfl

set_option maxHeartbeats 4000000 in
theorem scale2_eq : (V m c main_v53 : FVec Ideal S1x128 .f32) = shapeCast S1x128 (mulf (A18 m c) (Host.rsqrt (addf (A21 m c) (broadcastInDim S128 ![] bcast_S_S128 (constant (F := Ideal) S_ .f32 0x3727C5AC#32))))) shapeCasts_S128_S1x128 := by
  dsimp only [V, hostOps0]
  after_results_simp <;> rfl

set_option maxHeartbeats 4000000 in
theorem bias2_eq : (V m c main_v54 : FVec Ideal S1x128 .f32) = shapeCast S1x128 (addf (mulf (subf (A17 m c) (A20 m c)) (mulf (A18 m c) (Host.rsqrt (addf (A21 m c) (broadcastInDim S128 ![] bcast_S_S128 (constant (F := Ideal) S_ .f32 0x3727C5AC#32)))))) (A19 m c)) shapeCasts_S128_S1x128 := by
  dsimp only [V, hostOps0]
  after_results_simp <;> rfl

/-- The three arrays the region finds for layer 2 are the folded layer of the operator's arguments. -/
theorem fold2_eq : foldedOf (K := 64) (O := 128) (V m c main_v52) (V m c main_v53) (V m c main_v54)
    = (layerOf (K := 64) (O := 128) (A16 m c) (A17 m c) (A18 m c) (A19 m c) (A20 m c) (A21 m c)).fold := by
  have hW : (fun (k : Fin 64) (o : Fin 128) => (V m c main_v52 : FVec Ideal S64x128 .f32) (ix2 k o)) = fun k o => (A16 m c) (ix2 o k) := by
    funext k o
    rw [weights2_eq]
    exact transpose_at _ _ k o
  have hs : (fun (o : Fin 128) => (V m c main_v53 : FVec Ideal S1x128 .f32) (ix2 0 o))
      = fun o => (A18 m c) (ix1 o) * Ideal.rsqrt ((A21 m c) (ix1 o) + eps) := by
    funext o
    rw [scale2_eq, row_at]
    rfl
  have hb : (fun (o : Fin 128) => (V m c main_v54 : FVec Ideal S1x128 .f32) (ix2 0 o))
      = fun o => ((A17 m c) (ix1 o) - (A20 m c) (ix1 o)) * ((A18 m c) (ix1 o) * Ideal.rsqrt ((A21 m c) (ix1 o) + eps)) + (A19 m c) (ix1 o) := by
    funext o
    rw [bias2_eq, row_at]
    rfl
  show Folded.mk _ _ _ = Folded.mk _ _ _
  rw [hW, hs, hb]
  rfl

end Cert.SetAbs.KerHost

end
-- ==== Proof.KerPay.lean ====
/-
  The kernel body's arithmetic, read at one output coordinate.

  The body flattens its [256, 32, 67] block of grouped neighbour features to an [8192, 67] matrix (row 32·p + n
  for centre p and neighbour n), passes it through three layers, each a product with a [K, O] weight block into a zero
  accumulator, times a scale row, plus a bias row, rectified at zero, and finally regroups the [8192, 128] result as
  [256, 32, 128] and takes the maximum over the 32 neighbours from −∞. Read at (p, o), that is the pooled maximum over n
  of the three folded layers applied to the feature row of (p, n).
-/
import proofs.«410673_j69329362092243_3_alg».proof.Proof.Gen.KernelIdeal.Skeleton
import proofs.«410673_j69329362092243_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.SetAbs.KerPay

open Idealize.ShloMosaic Idealize.ShloMosaic.ValueIdx Cert.KernelIdeal Cert.KernelIdeal.Gen

/-! ## Rows of the flattened matrix -/

/-- The row of the [8192, ·] matrices that belongs to centre p and neighbour n. -/
def row (p : Fin 256) (n : Fin 32) : Fin 8192 := ⟨32 * p.val + n.val, by omega⟩

/-- Flattening [256, 32, 67] to [8192, 67]: row 32·p + n, column k is entry (p, n, k). -/
theorem flat_apply (v0 : Vec Ideal S256x32x67 .f32) (p : Fin 256) (n : Fin 32) (k : Fin 67) :
    shapeCast S8192x67 (shapeCast S256x32x67 v0 shapeCasts_S256x32x67_S256x32x67) shapeCasts_S256x32x67_S8192x67
        (ix2 (row p n) k) = v0 (ix3 p n k) := by
  rw [shapeCast_self]
  refine shapeCast_apply _ _ _ _ ?_
  rw [Shape.rowMajor_val_three, Shape.rowMajor_val_two]
  show (p.val * 32 + n.val) * 67 + k.val = (32 * p.val + n.val) * 67 + k.val
  omega

/-- Regrouping [8192, 128] as [256, 32, 128]: entry (p, n, o) is row 32·p + n, column o. -/
theorem group_apply (x : FVec Ideal S8192x128 .f32) (p : Fin 256) (n : Fin 32) (o : Fin 128) :
    shapeCast S256x32x128 x shapeCasts_S8192x128_S256x32x128 (ix3 p n o) = x (ix2 (row p n) o) := by
  refine shapeCast_apply _ _ _ _ ?_
  rw [Shape.rowMajor_val_three, Shape.rowMajor_val_two]
  show (32 * p.val + n.val) * 128 + o.val = (p.val * 32 + n.val) * 128 + o.val
  omega

/-! ## The three products -/

/-! ### The product into [8192, 64] over 67 terms -/

theorem lhsA_0 (i : S8192x64.Idx) (q : dot_S8192x67_S67x64_S8192x64_1_0_0_1_n_n.contr.Idx) :
    (dot_S8192x67_S67x64_S8192x64_1_0_0_1_n_n.lhsIdx i q 0).val = (i 0).val := by
  unfold DotDims.lhsIdx
  rw [dif_neg (show ¬(0 : Fin S8192x67.rank) ∈ dot_S8192x67_S67x64_S8192x64_1_0_0_1_n_n.lhsBatch by decide), dif_pos (show (0 : Fin S8192x67.rank) ∈ dot_S8192x67_S67x64_S8192x64_1_0_0_1_n_n.lhsNonContracting by decide)]
  rfl
theorem lhsA_1 (i : S8192x64.Idx) (q : dot_S8192x67_S67x64_S8192x64_1_0_0_1_n_n.contr.Idx) :
    (dot_S8192x67_S67x64_S8192x64_1_0_0_1_n_n.lhsIdx i q 1).val = (q ⟨0, by decide⟩).val :=
  dot_S8192x67_S67x64_S8192x64_1_0_0_1_n_n.lhsIdx_val_of_single rfl i q
theorem rhsA_0 (i : S8192x64.Idx) (q : dot_S8192x67_S67x64_S8192x64_1_0_0_1_n_n.contr.Idx) :
    (dot_S8192x67_S67x64_S8192x64_1_0_0_1_n_n.rhsIdx i q 0).val = (q ⟨0, by decide⟩).val :=
  dot_S8192x67_S67x64_S8192x64_1_0_0_1_n_n.rhsIdx_val_of_single rfl i q
theorem rhsA_1 (i : S8192x64.Idx) (q : dot_S8192x67_S67x64_S8192x64_1_0_0_1_n_n.contr.Idx) :
    (dot_S8192x67_S67x64_S8192x64_1_0_0_1_n_n.rhsIdx i q 1).val = (i 1).val := by
  unfold DotDims.rhsIdx
  rw [dif_neg (show ¬(1 : Fin S67x64.rank) ∈ dot_S8192x67_S67x64_S8192x64_1_0_0_1_n_n.rhsBatch by decide), dif_pos (show (1 : Fin S67x64.rank) ∈ dot_S8192x67_S67x64_S8192x64_1_0_0_1_n_n.rhsNonContracting by decide)]
  rfl

/-- The product into the zero accumulator at row r, column o: the sum over k of left (r, k) times right (k, o). -/
theorem matmulA_apply (lhs : FVec Ideal S8192x67 .f32) (rhs : FVec Ideal S67x64 .f32) (r : Fin 8192) (o : Fin 64) :
    matmul dot_S8192x67_S67x64_S8192x64_1_0_0_1_n_n (some .fp32) lhs rhs (constant (F := Ideal) S8192x64 .f32 0x00000000#32) (ix2 r o)
      = ∑ k : Fin 67, lhs (ix2 r k) * rhs (ix2 k o) := by
  simp only [matmul]
  rw [Ideal.matmul_constant_zero_apply, ← Equiv.sum_comp (ValueIdx.contrEquiv1 dot_S8192x67_S67x64_S8192x64_1_0_0_1_n_n 67 rfl rfl).symm]
  refine Finset.sum_congr rfl fun k _ => ?_
  have hk := ValueIdx.contrEquiv1_symm_val dot_S8192x67_S67x64_S8192x64_1_0_0_1_n_n 67 rfl rfl k
  have el : dot_S8192x67_S67x64_S8192x64_1_0_0_1_n_n.lhsIdx (ix2 r o) ((ValueIdx.contrEquiv1 dot_S8192x67_S67x64_S8192x64_1_0_0_1_n_n 67 rfl rfl).symm k) = ix2 r k := funext fun a => Fin.ext (by
    match a with
    | ⟨0, _⟩ => exact lhsA_0 _ _
    | ⟨1, _⟩ => exact (lhsA_1 _ _).trans hk)
  have er : dot_S8192x67_S67x64_S8192x64_1_0_0_1_n_n.rhsIdx (ix2 r o) ((ValueIdx.contrEquiv1 dot_S8192x67_S67x64_S8192x64_1_0_0_1_n_n 67 rfl rfl).symm k) = ix2 k o := funext fun a => Fin.ext (by
    match a with
    | ⟨0, _⟩ => exact (rhsA_0 _ _).trans hk
    | ⟨1, _⟩ => exact rhsA_1 _ _)
  rw [el, er]

/-! ### The product into [8192, 64] over 64 terms -/

theorem lhsB_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem lhsB_1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem rhsB_0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem rhsB_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- The product into the zero accumulator at row r, column o: the sum over k of left (r, k) times right (k, o). -/
theorem matmulB_apply (lhs : FVec Ideal S8192x64 .f32) (rhs : FVec Ideal S64x64 .f32) (r : Fin 8192) (o : Fin 64) :
    matmul dot_S8192x64_S64x64_S8192x64_1_0_0_1_n_n (some .fp32) lhs rhs (constant (F := Ideal) S8192x64 .f32 0x00000000#32) (ix2 r o)
      = ∑ k : Fin 64, lhs (ix2 r k) * rhs (ix2 k o) := by
  simp only [matmul]
  rw [Ideal.matmul_constant_zero_apply, ← Equiv.sum_comp (ValueIdx.contrEquiv1 dot_S8192x64_S64x64_S8192x64_1_0_0_1_n_n 64 rfl rfl).symm]
  refine Finset.sum_congr rfl fun k _ => ?_
  have hk := ValueIdx.contrEquiv1_symm_val dot_S8192x64_S64x64_S8192x64_1_0_0_1_n_n 64 rfl rfl k
  have el : dot_S8192x64_S64x64_S8192x64_1_0_0_1_n_n.lhsIdx (ix2 r o) ((ValueIdx.contrEquiv1 dot_S8192x64_S64x64_S8192x64_1_0_0_1_n_n 64 rfl rfl).symm k) = ix2 r k := funext fun a => Fin.ext (by
    match a with
    | ⟨0, _⟩ => exact lhsB_0 _ _
    | ⟨1, _⟩ => exact (lhsB_1 _ _).trans hk)
  have er : dot_S8192x64_S64x64_S8192x64_1_0_0_1_n_n.rhsIdx (ix2 r o) ((ValueIdx.contrEquiv1 dot_S8192x64_S64x64_S8192x64_1_0_0_1_n_n 64 rfl rfl).symm k) = ix2 k o := funext fun a => Fin.ext (by
    match a with
    | ⟨0, _⟩ => exact (rhsB_0 _ _).trans hk
    | ⟨1, _⟩ => exact rhsB_1 _ _)
  rw [el, er]

/-! ### The product into [8192, 128] over 64 terms -/

theorem lhsC_0 (i : S8192x128.Idx) (q : dot_S8192x64_S64x128_S8192x128_1_0_0_1_n_n.contr.Idx) :
    (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl
theorem lhsC_1 (i : S8192x128.Idx) (q : dot_S8192x64_S64x128_S8192x128_1_0_0_1_n_n.contr.Idx) :
    (dot_S8192x64_S64x128_S8192x128_1_0_0_1_n_n.lhsIdx i q 1).val = (q ⟨0, by decide⟩).val :=
  dot_S8192x64_S64x128_S8192x128_1_0_0_1_n_n.lhsIdx_val_of_single rfl i q
theorem rhsC_0 (i : S8192x128.Idx) (q : dot_S8192x64_S64x128_S8192x128_1_0_0_1_n_n.contr.Idx) :
    (dot_S8192x64_S64x128_S8192x128_1_0_0_1_n_n.rhsIdx i q 0).val = (q ⟨0, by decide⟩).val :=
  dot_S8192x64_S64x128_S8192x128_1_0_0_1_n_n.rhsIdx_val_of_single rfl i q
theorem rhsC_1 (i : S8192x128.Idx) (q : dot_S8192x64_S64x128_S8192x128_1_0_0_1_n_n.contr.Idx) :
    (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl

/-- The product into the zero accumulator at row r, column o: the sum over k of left (r, k) times right (k, o). -/
theorem matmulC_apply (lhs : FVec Ideal S8192x64 .f32) (rhs : FVec Ideal S64x128 .f32) (r : Fin 8192) (o : Fin 128) :
    matmul dot_S8192x64_S64x128_S8192x128_1_0_0_1_n_n (some .fp32) lhs rhs (constant (F := Ideal) S8192x128 .f32 0x00000000#32) (ix2 r o)
      = ∑ k : Fin 64, lhs (ix2 r k) * rhs (ix2 k o) := by
  simp only [matmul]
  rw [Ideal.matmul_constant_zero_apply, ← Equiv.sum_comp (ValueIdx.contrEquiv1 dot_S8192x64_S64x128_S8192x128_1_0_0_1_n_n 64 rfl rfl).symm]
  refine Finset.sum_congr rfl fun k _ => ?_
  have hk := ValueIdx.contrEquiv1_symm_val dot_S8192x64_S64x128_S8192x128_1_0_0_1_n_n 64 rfl rfl k
  have el : dot_S8192x64_S64x128_S8192x128_1_0_0_1_n_n.lhsIdx (ix2 r o) ((ValueIdx.contrEquiv1 dot_S8192x64_S64x128_S8192x128_1_0_0_1_n_n 64 rfl rfl).symm k) = ix2 r k := funext fun a => Fin.ext (by
    match a with
    | ⟨0, _⟩ => exact lhsC_0 _ _
    | ⟨1, _⟩ => exact (lhsC_1 _ _).trans hk)
  have er : dot_S8192x64_S64x128_S8192x128_1_0_0_1_n_n.rhsIdx (ix2 r o) ((ValueIdx.contrEquiv1 dot_S8192x64_S64x128_S8192x128_1_0_0_1_n_n 64 rfl rfl).symm k) = ix2 k o := funext fun a => Fin.ext (by
    match a with
    | ⟨0, _⟩ => exact (rhsC_0 _ _).trans hk
    | ⟨1, _⟩ => exact rhsC_1 _ _)
  rw [el, er]

/-! ## Scale and bias rows -/

/-- A [1, 64] row spread over the 8192 rows: entry (r, o) is the row's entry (0, o). -/
theorem spread64_apply (v : Vec Ideal S1x64 .f32) (r : Fin 8192) (o : Fin 64) :
    broadcastTo S8192x64 (shapeCast S1x64 v shapeCasts_S1x64_S1x64) broadcasts_S1x64_S8192x64 (ix2 r o) = v (ix2 0 o) := by
  rw [shapeCast_self]
  refine broadcastTo_apply _ _ _ _ (fun a => ?_)
  match a with
  | ⟨0, _⟩ => show (0 : Nat) = if (1 : Nat) = 1 then 0 else r.val; rw [if_pos rfl]
  | ⟨1, _⟩ => show o.val = if (64 : Nat) = 1 then 0 else o.val; rw [if_neg (by decide)]

/-- A [1, 128] row spread over the 8192 rows: entry (r, o) is the row's entry (0, o). -/
theorem spread128_apply (v : Vec Ideal S1x128 .f32) (r : Fin 8192) (o : Fin 128) :
    broadcastTo S8192x128 (shapeCast S1x128 v shapeCasts_S1x128_S1x128) broadcasts_S1x128_S8192x128 (ix2 r o) = v (ix2 0 o) := by
  rw [shapeCast_self]
  refine broadcastTo_apply _ _ _ _ (fun a => ?_)
  match a with
  | ⟨0, _⟩ => show (0 : Nat) = if (1 : Nat) = 1 then 0 else r.val; rw [if_pos rfl]
  | ⟨1, _⟩ => show o.val = if (128 : Nat) = 1 then 0 else o.val; rw [if_neg (by decide)]

/-! ## The body's stages by name -/

/-- The input block flattened to [8192, 67]. -/
def flat (v0 : Vec Ideal S256x32x67 .f32) : FVec Ideal S8192x67 .f32 :=
  shapeCast S8192x67 (shapeCast S256x32x67 v0 shapeCasts_S256x32x67_S256x32x67) shapeCasts_S256x32x67_S8192x67

/-- What follows a product of width 64: times the scale row, plus the bias row, rectified at zero. -/
def tail64 (mm : FVec Ideal S8192x64 .f32) (s b : Vec Ideal S1x64 .f32) : FVec Ideal S8192x64 .f32 :=
  maximumf (addf (mulf mm (broadcastTo S8192x64 (shapeCast S1x64 s shapeCasts_S1x64_S1x64) broadcasts_S1x64_S8192x64))
      (broadcastTo S8192x64 (shapeCast S1x64 b shapeCasts_S1x64_S1x64) broadcasts_S1x64_S8192x64))
    (broadcast S8192x64 (Scalar.ofBits (F := Ideal) .f32 0x00000000#32))

/-- The same at width 128. -/
def tail128 (mm : FVec Ideal S8192x128 .f32) (s b : Vec Ideal S1x128 .f32) : FVec Ideal S8192x128 .f32 :=
  maximumf (addf (mulf mm (broadcastTo S8192x128 (shapeCast S1x128 s shapeCasts_S1x128_S1x128) broadcasts_S1x128_S8192x128))
      (broadcastTo S8192x128 (shapeCast S1x128 b shapeCasts_S1x128_S1x128) broadcasts_S1x128_S8192x128))
    (broadcast S8192x128 (Scalar.ofBits (F := Ideal) .f32 0x00000000#32))

/-- The first layer: 67 features to 64 channels. -/
def layerA (X : FVec Ideal S8192x67 .f32) (w : Vec Ideal S67x64 .f32) (s b : Vec Ideal S1x64 .f32) : FVec Ideal S8192x64 .f32 :=
  tail64 (matmul dot_S8192x67_S67x64_S8192x64_1_0_0_1_n_n (some .fp32) X (shapeCast S67x64 w shapeCasts_S67x64_S67x64 : FVec Ideal S67x64 .f32)
    (constant (F := Ideal) S8192x64 .f32 0x00000000#32)) s b

/-- The second layer: 64 channels to 64 channels. -/
def layerB (X : FVec Ideal S8192x64 .f32) (w : Vec Ideal S64x64 .f32) (s b : Vec Ideal S1x64 .f32) : FVec Ideal S8192x64 .f32 :=
  tail64 (matmul dot_S8192x64_S64x64_S8192x64_1_0_0_1_n_n (some .fp32) X (shapeCast S64x64 w shapeCasts_S64x64_S64x64 : FVec Ideal S64x64 .f32)
    (constant (F := Ideal) S8192x64 .f32 0x00000000#32)) s b

/-- The third layer: 64 channels to 128 channels. -/
def layerC (X : FVec Ideal S8192x64 .f32) (w : Vec Ideal S64x128 .f32) (s b : Vec Ideal S1x128 .f32) : FVec Ideal S8192x128 .f32 :=
  tail128 (matmul dot_S8192x64_S64x128_S8192x128_1_0_0_1_n_n (some .fp32) X (shapeCast S64x128 w shapeCasts_S64x128_S64x128 : FVec Ideal S64x128 .f32)
    (constant (F := Ideal) S8192x128 .f32 0x00000000#32)) s b

/-- Regrouping by centre and taking the maximum over the 32 neighbours, from −∞. -/
def pooled (Y : FVec Ideal S8192x128 .f32) : FVec Ideal S256x128 .f32 :=
  multiReduction (F := Ideal) .maximumf [1] S256x128 (shapeCast S256x32x128 Y shapeCasts_S8192x128_S256x32x128) 0xFF800000#32
    reduces_S256x32x128_S256x128 (.inl rfl) rfl

/-- The body's arithmetic is these stages, one after another. -/
theorem pay_eq (v0 : Vec Ideal S256x32x67 .f32) (v3 : Vec Ideal S67x64 .f32) (v6 v10 : Vec Ideal S1x64 .f32)
    (v16 : Vec Ideal S64x64 .f32) (v19 v23 : Vec Ideal S1x64 .f32) (v29 : Vec Ideal S64x128 .f32) (v32 v36 : Vec Ideal S1x128 .f32) :
    k0_pay1 (F := Ideal) (k0_pay2 (F := Ideal) v0 v3 v6 v10 v16 v19 v23 v29) (k0_pay3 (F := Ideal) v32) v36
      = pooled (layerC (layerB (layerA (flat v0) v3 v6 v10) v16 v19 v23) v29 v32 v36) := rfl

/-! ## Each stage at a coordinate -/

theorem flat_row (v0 : Vec Ideal S256x32x67 .f32) (p : Fin 256) (n : Fin 32) (k : Fin 67) :
    flat v0 (ix2 (row p n) k) = v0 (ix3 p n k) := flat_apply v0 p n k

theorem tail64_apply (mm : FVec Ideal S8192x64 .f32) (s b : Vec Ideal S1x64 .f32) (r : Fin 8192) (o : Fin 64) :
    tail64 mm s b (ix2 r o) = max (mm (ix2 r o) * s (ix2 0 o) + b (ix2 0 o)) 0 := by
  unfold tail64
  rw [maximumf_apply, addf_apply, mulf_apply, broadcast_apply, spread64_apply, spread64_apply]
  exact congrArg (max _) Ideal.ofBits_zero_f32

theorem tail128_apply (mm : FVec Ideal S8192x128 .f32) (s b : Vec Ideal S1x128 .f32) (r : Fin 8192) (o : Fin 128) :
    tail128 mm s b (ix2 r o) = max (mm (ix2 r o) * s (ix2 0 o) + b (ix2 0 o)) 0 := by
  unfold tail128
  rw [maximumf_apply, addf_apply, mulf_apply, broadcast_apply, spread128_apply, spread128_apply]
  exact congrArg (max _) Ideal.ofBits_zero_f32

/-- The first layer at a row is the folded layer on that row. -/
theorem layerA_apply (X : FVec Ideal S8192x67 .f32) (w : Vec Ideal S67x64 .f32) (s b : Vec Ideal S1x64 .f32) (r : Fin 8192) (o : Fin 64) :
    layerA X w s b (ix2 r o) = (foldedOf w s b).ker (fun k : Fin 67 => X (ix2 r k)) o := by
  unfold layerA
  rw [tail64_apply, matmulA_apply, shapeCast_self]
  rfl

/-- The second layer at a row is the folded layer on that row. -/
theorem layerB_apply (X : FVec Ideal S8192x64 .f32) (w : Vec Ideal S64x64 .f32) (s b : Vec Ideal S1x64 .f32) (r : Fin 8192) (o : Fin 64) :
    layerB X w s b (ix2 r o) = (foldedOf w s b).ker (fun k : Fin 64 => X (ix2 r k)) o := by
  unfold layerB
  rw [tail64_apply, matmulB_apply, shapeCast_self]
  rfl

/-- The third layer at a row is the folded layer on that row. -/
theorem layerC_apply (X : FVec Ideal S8192x64 .f32) (w : Vec Ideal S64x128 .f32) (s b : Vec Ideal S1x128 .f32) (r : Fin 8192) (o : Fin 128) :
    layerC X w s b (ix2 r o) = (foldedOf w s b).ker (fun k : Fin 64 => X (ix2 r k)) o := by
  unfold layerC
  rw [tail128_apply, matmulC_apply, shapeCast_self]
  rfl

/-- The pooling at (p, o): the maximum over the 32 neighbours n of row 32·p + n, column o. -/
theorem pooled_apply (Y : FVec Ideal S8192x128 .f32) (p : Fin 256) (o : Fin 128) :
    pooled Y (ix2 p o) = pool (fun n : Fin 32 => Y (ix2 (row p n) o)) := by
  unfold pooled
  refine (Ideal.multiReduction_maximumf_single (shapeCast S256x32x128 Y shapeCasts_S8192x128_S256x32x128) 0xFF800000#32
    reduces_S256x32x128_S256x128 (.inl rfl) rfl (ix2 p o)).trans ?_
  unfold pool
  show (Finset.univ : Finset (Fin 32)).fold max (Ideal.ofBits .f32 0xFF800000#32) _ = _
  rw [Cert.LibReal.ofBits_negInf_f32]
  refine congrArg (fun f => Finset.fold max ⊥ f (Finset.univ : Finset (Fin 32))) (funext fun n => ?_)
  refine Eq.trans ?_ (group_apply Y p n o)
  refine congrArg (shapeCast S256x32x128 Y shapeCasts_S8192x128_S256x32x128) (funext fun a => Fin.ext ?_)
  match a with
  | ⟨0, _⟩ => rfl
  | ⟨1, _⟩ => rfl
  | ⟨2, _⟩ => rfl

/-! ## The assembly -/

/-- The body's result at (p, o): the pooled maximum over the neighbours of the three folded layers on each neighbour's
    feature row. -/
theorem pay_apply (v0 : Vec Ideal S256x32x67 .f32) (v3 : Vec Ideal S67x64 .f32) (v6 v10 : Vec Ideal S1x64 .f32)
    (v16 : Vec Ideal S64x64 .f32) (v19 v23 : Vec Ideal S1x64 .f32) (v29 : Vec Ideal S64x128 .f32) (v32 v36 : Vec Ideal S1x128 .f32)
    (p : Fin 256) (o : Fin 128) :
    k0_pay1 (F := Ideal) (k0_pay2 (F := Ideal) v0 v3 v6 v10 v16 v19 v23 v29) (k0_pay3 (F := Ideal) v32) v36 (ix2 p o)
      = pool (fun n : Fin 32 => mlpKer (foldedOf v3 v6 v10) (foldedOf v16 v19 v23) (foldedOf v29 v32 v36)
          (fun k : Fin 67 => v0 (ix3 p n k)) o) := by
  rw [pay_eq, pooled_apply]
  refine congrArg pool (funext fun n => ?_)
  unfold mlpKer
  refine (layerC_apply _ v29 v32 v36 (row p n) o).trans ?_
  refine congrArg (fun x => (foldedOf v29 v32 v36).ker x o) ?_
  refine (funext fun k => layerB_apply _ v16 v19 v23 (row p n) k).trans ?_
  refine congrArg (foldedOf v16 v19 v23).ker ?_
  refine (funext fun k => layerA_apply _ v3 v6 v10 (row p n) k).trans ?_
  exact congrArg (foldedOf v3 v6 v10).ker (funext fun k => flat_row v0 p n k)

end Cert.SetAbs.KerPay

end
-- ==== Proof.KerArr.lean ====
/-
  From the kernel's blocks to its result array.

  The region runs over 64 grid points; point t stages rows 256·t … 256·t + 255 of the gathered input
  [16384, 32, 67] and of the result [16384, 128], and the whole of each of the nine parameter arrays.
  What point t writes back is therefore block t of ONE function of the arrays the region finds — the
  pooled three-layer map of each centre's 32 neighbour rows — and the 64 blocks tile the result.
-/
import proofs.«410673_j69329362092243_3_alg».proof.Proof.Gen.KernelIdeal.Value
import proofs.«410673_j69329362092243_3_alg».proof.Proof.Spec
import proofs.«410673_j69329362092243_3_alg».proof.Proof.KerPay
import Idealize.ShloMosaic.Lib.Pipeline.Value
import Idealize.ShloMosaic.Lib.ValueIdx

set_option maxRecDepth 16384

noncomputable section

namespace Cert.SetAbs.KerArr

open Cert.KernelIdeal Cert.KernelIdeal.Gen Idealize.ShloMosaic Idealize.ShloMosaic.TcCoe Idealize.SL.Sem
open Idealize.ShloMosaic.ValueIdx
open Idealize.ShloMosaic.Pipeline (Dat)
open Cert.SetAbs

variable (m : (ℓ : Loc nD τ sig) → Buf (Elt Ideal) ℓ) (c : Dev nD)

/-- The kernel's three folded layers, as the region finds their arrays. -/
def fold0 : Folded 67 64 := foldedOf (V m c main_v32) (V m c main_v33) (V m c main_v34)
def fold1 : Folded 64 64 := foldedOf (V m c main_v42) (V m c main_v43) (V m c main_v44)
def fold2 : Folded 64 128 := foldedOf (V m c main_v52) (V m c main_v53) (V m c main_v54)

/-- The result at centre a and channel o: the maximum over the 32 neighbours of the three layers applied
    to the neighbour's gathered row. -/
def resultAt (a : Fin 16384) (o : Fin 128) : EReal :=
  pool fun n => mlpKer (fold0 m c) (fold1 m c) (fold2 m c) (fun k => V m c main_v24 (ix3 a n k)) o

/-- The result array as one function of the arrays the region finds. -/
def result : S16384x128.Idx → EReal := fun i => resultAt m c ⟨(i 0).val, (i 0).isLt⟩ ⟨(i 1).val, (i 1).isLt⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 64 grid points: the input and the result move one block of
    256 rows per point; every parameter window stays at block 0. -/
theorem idx_facts : ∀ t : Fin cfg0.N,
    win0_0.index t (0 : Fin 3) = t.val ∧ win0_0.index t (1 : Fin 3) = 0 ∧ win0_0.index t (2 : Fin 3) = 0
    ∧ win0_10.index t (0 : Fin 2) = t.val ∧ win0_10.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-! A parameter window's block is the whole array, at every point. -/

theorem blk1 (t : Fin cfg0.N) : (iblk m c 1 t : S67x64.Idx → EReal) = V m c main_v32 := by
  have e0 : win0_1.index t (0 : Fin 2) = 0 := (idx_facts t).2.2.2.2.2.1
  have e1 : win0_1.index t (1 : Fin 2) = 0 := (idx_facts t).2.2.2.2.2.2.1
  funext y
  show V m c main_v32 (((cfg0.win 1).blk t).view.emb y) = V m c main_v32 y
  refine congrArg _ (funext fun a => Fin.ext ?_)
  match a with
  | ⟨0, _⟩ => show win0_1.index t (0 : Fin 2) * 67 + 1 * (y 0).val = (y 0).val; omega
  | ⟨1, _⟩ => show win0_1.index t (1 : Fin 2) * 64 + 1 * (y 1).val = (y 1).val; omega

theorem blk2 (t : Fin cfg0.N) : (iblk m c 2 t : S1x64.Idx → EReal) = V m c main_v33 := by
  have e0 : win0_2.index t (0 : Fin 2) = 0 := (idx_facts t).2.2.2.2.2.2.2.1
  have e1 : win0_2.index t (1 : Fin 2) = 0 := (idx_facts t).2.2.2.2.2.2.2.2.1
  funext y
  show V m c main_v33 (((cfg0.win 2).blk t).view.emb y) = V m c main_v33 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

theorem blk3 (t : Fin cfg0.N) : (iblk m c 3 t : S1x64.Idx → EReal) = V m c main_v34 := by
  have e0 : win0_3.index t (0 : Fin 2) = 0 := (idx_facts t).2.2.2.2.2.2.2.2.2.1
  have e1 : win0_3.index t (1 : Fin 2) = 0 := (idx_facts t).2.2.2.2.2.2.2.2.2.2.1
  funext y
  show V m c main_v34 (((cfg0.win 3).blk t).view.emb y) = V m c main_v34 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

theorem blk4 (t : Fin cfg0.N) : (iblk m c 4 t : S64x64.Idx → EReal) = V m c main_v42 := by
  have e0 : win0_4.index t (0 : Fin 2) = 0 := (idx_facts t).2.2.2.2.2.2.2.2.2.2.2.1
  have e1 : win0_4.index t (1 : Fin 2) = 0 := (idx_facts t).2.2.2.2.2.2.2.2.2.2.2.2.1
  funext y
  show V m c main_v42 (((cfg0.win 4).blk t).view.emb y) = V m c main_v42 y
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

theorem blk5 (t : Fin cfg0.N) : (iblk m c 5 t : S1x64.Idx → EReal) = V m c main_v43 := by
  have e0 : win0_5.index t (0 : Fin 2) = 0 := (idx_facts t).2.2.2.2.2.2.2.2.2.2.2.2.2.1
  have e1 : win0_5.index t (1 : Fin 2) = 0 := (idx_facts t).2.2.2.2.2.2.2.2.2.2.2.2.2.2.1
  funext y
  show V m c main_v43 (((cfg0.win 5).blk t).view.emb y) = V m c main_v43 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

theorem blk6 (t : Fin cfg0.N) : (iblk m c 6 t : S1x64.Idx → EReal) = V m c main_v44 := by
  have e0 : win0_6.index t (0 : Fin 2) = 0 := (idx_facts t).2.2.2.2.2.2.2.2.2.2.2.2.2.2.2.1
  have e1 : win0_6.index t (1 : Fin 2) = 0 := (idx_facts t).2.2.2.2.2.2.2.2.2.2.2.2.2.2.2.2.1
  funext y
  show V m c main_v44 (((cfg0.win 6).blk t).view.emb y) = V m c main_v44 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

theorem blk7 (t : Fin cfg0.N) : (iblk m c 7 t : S64x128.Idx → EReal) = V m c main_v52 := by
  have e0 : win0_7.index t (0 : Fin 2) = 0 := (idx_facts t).2.2.2.2.2.2.2.2.2.2.2.2.2.2.2.2.2.1
  have e1 : win0_7.index t (1 : Fin 2) = 0 := (idx_facts t).2.2.2.2.2.2.2.2.2.2.2.2.2.2.2.2.2.2.1
  funext y
  show V m c main_v52 (((cfg0.win 7).blk t).view.emb y) = V m c main_v52 y
  refine congrArg _ (funext fun a => Fin.ext ?_)
  match a with
  | ⟨0, _⟩ => show win0_7.index t (0 : Fin 2) * 64 + 1 * (y 0).val = (y 0).val; omega
  | ⟨1, _⟩ => show win0_7.index t (1 : Fin 2) * 128 + 1 * (y 1).val = (y 1).val; omega

theorem blk8 (t : Fin cfg0.N) : (iblk m c 8 t : S1x128.Idx → EReal) = V m c main_v53 := by
  have e0 : win0_8.index t (0 : Fin 2) = 0 := (idx_facts t).2.2.2.2.2.2.2.2.2.2.2.2.2.2.2.2.2.2.2.1
  have e1 : win0_8.index t (1 : Fin 2) = 0 := (idx_facts t).2.2.2.2.2.2.2.2.2.2.2.2.2.2.2.2.2.2.2.2.1
  funext y
  show V m c main_v53 (((cfg0.win 8).blk t).view.emb y) = V m c main_v53 y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

theorem blk9 (t : Fin cfg0.N) : (iblk m c 9 t : S1x128.Idx → EReal) = V m c main_v54 := by
  have e0 : win0_9.index t (0 : Fin 2) = 0 := (idx_facts t).2.2.2.2.2.2.2.2.2.2.2.2.2.2.2.2.2.2.2.2.2.1
  have e1 : win0_9.index t (1 : Fin 2) = 0 := (idx_facts t).2.2.2.2.2.2.2.2.2.2.2.2.2.2.2.2.2.2.2.2.2.2
  funext y
  show V m c main_v54 (((cfg0.win 9).blk t).view.emb y) = V m c main_v54 y
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- The input window's block at point t is rows 256·t … of the gathered array. -/
theorem blk0 (t : Fin cfg0.N) (p : Fin 256) (n : Fin 32) (k : Fin 67) (h : t.val * 256 + p.val < 16384) :
    (iblk m c 0 t : S256x32x67.Idx → EReal) (ix3 p n k) = V m c main_v24 (ix3 ⟨t.val * 256 + p.val, h⟩ n k) := by
  obtain ⟨e0, e1, e2, -⟩ := idx_facts t
  show V m c main_v24 (((cfg0.win 0).blk t).view.emb (ix3 p n k)) = _
  refine congrArg _ (funext fun a => Fin.ext ?_)
  match a with
  | ⟨0, _⟩ => show win0_0.index t (0 : Fin 3) * 256 + 1 * p.val = t.val * 256 + p.val; omega
  | ⟨1, _⟩ => show win0_0.index t (1 : Fin 3) * 32 + 1 * n.val = n.val; omega
  | ⟨2, _⟩ => show win0_0.index t (2 : Fin 3) * 67 + 1 * k.val = k.val; omega

/-- The body's result at point t, row p, channel o, is the result function at row 256·t + p. -/
theorem point_eq (t : Fin cfg0.N) (p : Fin 256) (o : Fin 128) (hp : t.val * 256 + p.val < 16384) :
    k0_pay1 (F := Ideal) (k0_pay2 (F := Ideal) (iblk m c 0 t) (iblk m c 1 t) (iblk m c 2 t) (iblk m c 3 t) (iblk m c 4 t) (iblk m c 5 t) (iblk m c 6 t) (iblk m c 7 t)) (k0_pay3 (F := Ideal) (iblk m c 8 t)) (iblk m c 9 t) (ix2 p o)
      = resultAt m c ⟨t.val * 256 + p.val, hp⟩ o := by
  refine (KerPay.pay_apply (iblk m c 0 t) (iblk m c 1 t) (iblk m c 2 t) (iblk m c 3 t) (iblk m c 4 t) (iblk m c 5 t) (iblk m c 6 t) (iblk m c 7 t) (iblk m c 8 t) (iblk m c 9 t) p o).trans ?_
  unfold resultAt fold0 fold1 fold2
  rw [blk1 m c t, blk2 m c t, blk3 m c t, blk4 m c t, blk5 m c t, blk6 m c t, blk7 m c t, blk8 m c t, blk9 m c t]
  refine congrArg pool (funext fun n => ?_)
  refine congrFun (congrArg (mlpKer _ _ _) (funext fun k => ?_)) o
  exact blk0 m c t p n k hp

/-- Row p, channel o of point t's block is row 256·t + p, channel o of the array. -/
theorem emb_eq (t : Fin cfg0.N) (p : Fin 256) (o : Fin 128) (hp : t.val * 256 + p.val < 16384) :
    ((cfg0.win 10).blk t).view.emb (ix2 p o) = (ix2 (⟨t.val * 256 + p.val, hp⟩ : Fin 16384) o : S16384x128.Idx) := by
  obtain ⟨-, -, -, e0, e1, -⟩ := idx_facts t
  funext a; apply Fin.ext
  match a with
  | ⟨0, _⟩ => show win0_10.index t (0 : Fin 2) * 256 + 1 * p.val = t.val * 256 + p.val; omega
  | ⟨1, _⟩ => show win0_10.index t (1 : Fin 2) * 128 + 1 * o.val = o.val; omega

set_option maxHeartbeats 2000000 in
/-- WHAT POINT t WRITES BACK is block t of the result function. -/
theorem flushed_eq (t : Fin cfg0.N) :
    (dats m 0 c).flushed 10 t = ((cfg0.win 10).blk t).view.read (Elt Ideal) (result m c) := by
  rw [Cert.KernelIdeal.Value.flushed10]
  unfold out0_10
  rw [View.canon_unit_zero hz2]
  simp only [View.ld_unit_zero (S := S256x32x67) hz3, View.ld_unit_zero (S := S67x64) hz2, View.ld_unit_zero (S := S1x64) hz2,
    View.ld_unit_zero (S := S64x64) hz2, View.ld_unit_zero (S := S64x128) hz2, View.ld_unit_zero (S := S1x128) hz2]
  funext j
  obtain ⟨p, o, rfl⟩ : ∃ (p : Fin 256) (o : Fin 128), j = ix2 p o := ⟨j 0, j 1, eq_ix2 j⟩
  have ht : t.val < 64 := t.isLt
  have hp : t.val * 256 + p.val < 16384 := by have := p.isLt; omega
  show k0_pay1 (F := Ideal) (k0_pay2 (F := Ideal) (iblk m c 0 t) (iblk m c 1 t) (iblk m c 2 t) (iblk m c 3 t) (iblk m c 4 t) (iblk m c 5 t) (iblk m c 6 t) (iblk m c 7 t)) (k0_pay3 (F := Ideal) (iblk m c 8 t)) (iblk m c 9 t) (ix2 p o)
    = result m c (((cfg0.win 10).blk t).view.emb (ix2 p o))
  rw [emb_eq t p o hp]
  exact point_eq m c t p o hp

/-- An index of the result is in point t's block iff each coordinate is in the block's range. -/
theorem mem_blk (t : Fin cfg0.N) (i : S16384x128.Idx) :
    i ∈ ((cfg0.win 10).blk t).view.set ↔ ∀ a : Fin 2, win0_10.index t a * S256x128.size a ≤ (i a).val ∧ (i a).val < win0_10.index t a * S256x128.size a + S256x128.size a := by
  show i ∈ ((View.whole main_v55).slice (win0_10.rect t)).set ↔ _
  rw [View.set_slice_whole, Rect.mem_set_unit]
  exact Iff.rfl

/-- Every index of the result lies in the block of the point that holds its row: row r is in block r / 256. -/
theorem cover (i : S16384x128.Idx) : ∃ t : Fin cfg0.N, (cfg0.win 10).flush t = true ∧ i ∈ ((cfg0.win 10).blk t).view.set := by
  have hi0 : (i 0).val < 16384 := (i 0).isLt
  have hi1 : (i 1).val < 128 := (i 1).isLt
  let t : Fin cfg0.N := ⟨(i 0).val / 256, by show (i 0).val / 256 < 64; omega⟩
  obtain ⟨-, -, -, e0, e1, -⟩ := idx_facts t
  have et : t.val = (i 0).val / 256 := rfl
  refine ⟨t, flush0_10 t, ?_⟩
  rw [mem_blk]
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 128 ≤ (i 1).val ∧ (i 1).val < win0_10.index t (1 : Fin 2) * 128 + 128; omega

/-- THE ARRAY after the run is the result function. -/
theorem final : (dats m 0 c).arrAt 10 cfg0.N = result m c :=
  (dats m 0 c).arrAt_eq_of_cover 10 (result m c) (fun t _ => flushed_eq m c t) (cover)

end Cert.SetAbs.KerArr

end
-- ==== Proof.RefRead.lean ====
/-
  The reference program read as mathematics.

  The reference gathers, for each of the 16384 centres and each of its 32 neighbours, a row of 67 features, passes the
  row through three layers and takes, per output channel, the maximum over the 32 neighbours. Each layer is a
  contraction with the weight matrix, plus the bias, minus the running mean, times the gain over the square root of
  the running variance plus epsilon, plus the shift, and a rectifier against zero. Reading the program one operation at
  a time, with every broadcast followed back to the parameter entry it copies, gives exactly the layer of the
  specification; the final reduction from −∞ with a maximum body over the neighbour axis is the pooling.
-/
import proofs.«410673_j69329362092243_3_alg».proof.Proof.Gen.ReferenceIdeal.Read
import proofs.«410673_j69329362092243_3_alg».proof.Proof.Spec
import Idealize.ShloMosaic.PureOps.Reduce
import Idealize.ShloMosaic.PureOps.Ideal.Laws
import Idealize.ShloMosaic.Lib.ValueIdx

noncomputable section

open scoped BigOperators

namespace Cert.SetAbs.RefRead

open Idealize.ShloMosaic Idealize.ShloMosaic.ValueIdx Idealize.ShloMosaic.StableHlo
open Cert.ReferenceIdeal Cert.ReferenceIdeal.Gen Cert.ReferenceIdeal.Read
open Cert.SetAbs

/-! ## The three layers -/

/-- The first layer: the rectified value at centre a, neighbour n, channel o is the specification's layer on the
    gathered feature row of (a, n). -/
theorem layer0 (x0 : (⟨S65536x3, .f32⟩ : BufTy).Contents (Elt Ideal)) (x1 : (⟨S65536x64, .f32⟩ : BufTy).Contents (Elt Ideal)) (x2 : (⟨S16384, .i32⟩ : BufTy).Contents (Elt Ideal)) (x3 : (⟨S16384x32, .i32⟩ : BufTy).Contents (Elt Ideal)) (x4 : (⟨S64x67, .f32⟩ : BufTy).Contents (Elt Ideal)) (x5 x6 x7 x8 x9 : (⟨S64, .f32⟩ : BufTy).Contents (Elt Ideal))
    (a : Fin 16384) (n : Fin 32) (o : Fin 64) :
    val_main_v42 (F := Ideal) x0 x1 x2 x3 x4 x5 x6 x7 x8 x9 (ix3 a n o)
      = (layerOf x4 x5 x6 x7 x8 x9).ref (fun k : Fin 67 => val_main_v24 (F := Ideal) x0 x1 x2 x3 (ix3 a n k)) o := by
  rw [val_main_v42_apply, val_main_v41_apply, val_main_v38_apply, val_main_v31_apply, val_main_v28_apply, val_main_v25_apply, val_main_v27_apply, val_main_v26_apply, val_main_v30_apply, val_main_v29_apply, val_main_v37_apply, val_main_v36_apply, val_main_v35_apply, val_main_v34_apply, val_main_v33_apply, val_main_v32_apply, val_main_cst_apply, val_main_v40_apply, val_main_v39_apply, val_main_call0_v0_apply, val_main_call0_cst_apply]
  have e1 : ∀ k : Fin 67, lidx_main_v25 (ix3 a n o) k = ix3 a n k := fun k => funext fun d => Fin.ext (by match d with | ⟨0, _⟩ => rfl | ⟨1, _⟩ => rfl | ⟨2, _⟩ => rfl)
  have e2 : ∀ k : Fin 67, ridx_main_v25 (ix3 a n o) k = ix2 o k := fun k => funext fun d => Fin.ext (by match d with | ⟨0, _⟩ => rfl | ⟨1, _⟩ => rfl)
  have e3 : idx_main_v26 (idx_main_v27 (ix3 a n o)) = ix1 o := funext fun d => Fin.ext (by match d with | ⟨0, _⟩ => rfl)
  have e4 : idx_main_v29 (idx_main_v30 (ix3 a n o)) = ix1 o := funext fun d => Fin.ext (by match d with | ⟨0, _⟩ => rfl)
  have e5 : idx_main_v36 (idx_main_v37 (ix3 a n o)) = ix1 o := funext fun d => Fin.ext (by match d with | ⟨0, _⟩ => rfl)
  have e6 : idx_main_v39 (idx_main_v40 (ix3 a n o)) = ix1 o := funext fun d => Fin.ext (by match d with | ⟨0, _⟩ => rfl)
  rw [e3, e4, e5, e6]
  simp only [e1, e2]
  unfold Layer.ref Layer.scale layerOf eps
  simp only [Ideal.addf_def, Ideal.subf_def, Ideal.mulf_def, Ideal.maximumf_def, Ideal.hostUnary_rsqrt_def,
    Ideal.ofBits_def, Ideal.ofBits_zero_f32]

/-- The second layer, on the first layer's row. -/
theorem layer1 (x0 : (⟨S65536x3, .f32⟩ : BufTy).Contents (Elt Ideal)) (x1 : (⟨S65536x64, .f32⟩ : BufTy).Contents (Elt Ideal)) (x2 : (⟨S16384, .i32⟩ : BufTy).Contents (Elt Ideal)) (x3 : (⟨S16384x32, .i32⟩ : BufTy).Contents (Elt Ideal)) (x4 : (⟨S64x67, .f32⟩ : BufTy).Contents (Elt Ideal)) (x5 x6 x7 x8 x9 : (⟨S64, .f32⟩ : BufTy).Contents (Elt Ideal)) (x10 : (⟨S64x64, .f32⟩ : BufTy).Contents (Elt Ideal)) (x11 x12 x13 x14 x15 : (⟨S64, .f32⟩ : BufTy).Contents (Elt Ideal))
    (a : Fin 16384) (n : Fin 32) (o : Fin 64) :
    val_main_v60 (F := Ideal) x0 x1 x2 x3 x4 x5 x6 x7 x8 x9 x10 x11 x12 x13 x14 x15 (ix3 a n o)
      = (layerOf x10 x11 x12 x13 x14 x15).ref (fun k : Fin 64 => val_main_v42 (F := Ideal) x0 x1 x2 x3 x4 x5 x6 x7 x8 x9 (ix3 a n k)) o := by
  rw [val_main_v60_apply, val_main_v59_apply, val_main_v56_apply, val_main_v49_apply, val_main_v46_apply, val_main_v43_apply, val_main_v45_apply, val_main_v44_apply, val_main_v48_apply, val_main_v47_apply, val_main_v55_apply, val_main_v54_apply, val_main_v53_apply, val_main_v52_apply, val_main_v51_apply, val_main_v50_apply, val_main_cst_6_apply, val_main_v58_apply, val_main_v57_apply, val_main_call1_v0_apply, val_main_call1_cst_apply]
  have e1 : ∀ k : Fin 64, lidx_main_v43 (ix3 a n o) k = ix3 a n k := fun k => funext fun d => Fin.ext (by match d with | ⟨0, _⟩ => rfl | ⟨1, _⟩ => rfl | ⟨2, _⟩ => rfl)
  have e2 : ∀ k : Fin 64, ridx_main_v43 (ix3 a n o) k = ix2 o k := fun k => funext fun d => Fin.ext (by match d with | ⟨0, _⟩ => rfl | ⟨1, _⟩ => rfl)
  have e3 : idx_main_v44 (idx_main_v45 (ix3 a n o)) = ix1 o := funext fun d => Fin.ext (by match d with | ⟨0, _⟩ => rfl)
  have e4 : idx_main_v47 (idx_main_v48 (ix3 a n o)) = ix1 o := funext fun d => Fin.ext (by match d with | ⟨0, _⟩ => rfl)
  have e5 : idx_main_v54 (idx_main_v55 (ix3 a n o)) = ix1 o := funext fun d => Fin.ext (by match d with | ⟨0, _⟩ => rfl)
  have e6 : idx_main_v57 (idx_main_v58 (ix3 a n o)) = ix1 o := funext fun d => Fin.ext (by match d with | ⟨0, _⟩ => rfl)
  rw [e3, e4, e5, e6]
  simp only [e1, e2]
  unfold Layer.ref Layer.scale layerOf eps
  simp only [Ideal.addf_def, Ideal.subf_def, Ideal.mulf_def, Ideal.maximumf_def, Ideal.hostUnary_rsqrt_def,
    Ideal.ofBits_def, Ideal.ofBits_zero_f32]

/-- The third layer, on the second layer's row. -/
theorem layer2 (x0 : (⟨S65536x3, .f32⟩ : BufTy).Contents (Elt Ideal)) (x1 : (⟨S65536x64, .f32⟩ : BufTy).Contents (Elt Ideal)) (x2 : (⟨S16384, .i32⟩ : BufTy).Contents (Elt Ideal)) (x3 : (⟨S16384x32, .i32⟩ : BufTy).Contents (Elt Ideal)) (x4 : (⟨S64x67, .f32⟩ : BufTy).Contents (Elt Ideal)) (x5 x6 x7 x8 x9 : (⟨S64, .f32⟩ : BufTy).Contents (Elt Ideal)) (x10 : (⟨S64x64, .f32⟩ : BufTy).Contents (Elt Ideal)) (x11 x12 x13 x14 x15 : (⟨S64, .f32⟩ : BufTy).Contents (Elt Ideal)) (x16 : (⟨S128x64, .f32⟩ : BufTy).Contents (Elt Ideal)) (x17 x18 x19 x20 x21 : (⟨S128, .f32⟩ : BufTy).Contents (Elt Ideal))
    (a : Fin 16384) (n : Fin 32) (o : Fin 128) :
    val_main_v78 (F := Ideal) x0 x1 x2 x3 x4 x5 x6 x7 x8 x9 x10 x11 x12 x13 x14 x15 x16 x17 x18 x19 x20 x21 (ix3 a n o)
      = (layerOf x16 x17 x18 x19 x20 x21).ref (fun k : Fin 64 => val_main_v60 (F := Ideal) x0 x1 x2 x3 x4 x5 x6 x7 x8 x9 x10 x11 x12 x13 x14 x15 (ix3 a n k)) o := by
  rw [val_main_v78_apply, val_main_v77_apply, val_main_v74_apply, val_main_v67_apply, val_main_v64_apply, val_main_v61_apply, val_main_v63_apply, val_main_v62_apply, val_main_v66_apply, val_main_v65_apply, val_main_v73_apply, val_main_v72_apply, val_main_v71_apply, val_main_v70_apply, val_main_v69_apply, val_main_v68_apply, val_main_cst_7_apply, val_main_v76_apply, val_main_v75_apply, val_main_call2_v0_apply, val_main_call2_cst_apply]
  have e1 : ∀ k : Fin 64, lidx_main_v61 (ix3 a n o) k = ix3 a n k := fun k => funext fun d => Fin.ext (by match d with | ⟨0, _⟩ => rfl | ⟨1, _⟩ => rfl | ⟨2, _⟩ => rfl)
  have e2 : ∀ k : Fin 64, ridx_main_v61 (ix3 a n o) k = ix2 o k := fun k => funext fun d => Fin.ext (by match d with | ⟨0, _⟩ => rfl | ⟨1, _⟩ => rfl)
  have e3 : idx_main_v62 (idx_main_v63 (ix3 a n o)) = ix1 o := funext fun d => Fin.ext (by match d with | ⟨0, _⟩ => rfl)
  have e4 : idx_main_v65 (idx_main_v66 (ix3 a n o)) = ix1 o := funext fun d => Fin.ext (by match d with | ⟨0, _⟩ => rfl)
  have e5 : idx_main_v72 (idx_main_v73 (ix3 a n o)) = ix1 o := funext fun d => Fin.ext (by match d with | ⟨0, _⟩ => rfl)
  have e6 : idx_main_v75 (idx_main_v76 (ix3 a n o)) = ix1 o := funext fun d => Fin.ext (by match d with | ⟨0, _⟩ => rfl)
  rw [e3, e4, e5, e6]
  simp only [e1, e2]
  unfold Layer.ref Layer.scale layerOf eps
  simp only [Ideal.addf_def, Ideal.subf_def, Ideal.mulf_def, Ideal.maximumf_def, Ideal.hostUnary_rsqrt_def,
    Ideal.ofBits_def, Ideal.ofBits_zero_f32]

/-! ## The pooling -/

/-- The reduced shape is the operand's with the neighbour axis dropped. -/
theorem red : S16384x32x128.Reduces [1] S16384x128 := by decide

/-- The reduced index (a, o) with neighbour k put back is (a, k, o). -/
theorem lift_ix (a : Fin 16384) (o : Fin 128) (k : Fin (S16384x32x128.size 1)) :
    red.lift (ix2 a o) k = ix3 a (⟨k.val, k.isLt⟩ : Fin 32) o := by
  funext c; apply Fin.ext
  match c with
  | ⟨0, _⟩ => rfl
  | ⟨1, _⟩ => rfl
  | ⟨2, _⟩ => rfl

/-- From −∞, the reduction with a maximum body over the neighbour axis is, at (a, o), the pooled maximum of the 32
    values at (a, ·, o). -/
theorem reduce_pool (x : (⟨S16384x32x128, .f32⟩ : BufTy).Contents (Elt Ideal)) (a : Fin 16384) (o : Fin 128) :
    Host.reduce (α := Ideal .f32) (s := S16384x32x128) FloatOps.maximumf x (val_main_cst_8 (F := Ideal)) reducesTo_S16384x32x128_S16384x128_d1 h_S_ (ix2 a o)
      = pool (fun n : Fin 32 => x (ix3 a n o)) := by
  refine (Host.reduce_eq_fold_single (α := Ideal .f32) (s := S16384x32x128) FloatOps.maximumf x (val_main_cst_8 (F := Ideal))
    reducesTo_S16384x32x128_S16384x128_d1 red h_S_ (ix2 a o)).trans ?_
  unfold pool
  have hf : (x ∘ red.lift (ix2 a o)) = fun k : Fin 32 => x (ix3 a k o) := funext fun k => congrArg x (lift_ix a o k)
  have hi : (val_main_cst_8 (F := Ideal)) (Shape.Idx.first h_S_) = (⊥ : EReal) :=
    (val_main_cst_8_apply (F := Ideal) _).trans Cert.LibReal.ofBits_negInf_f32
  rw [hi]
  exact congrArg (fun f => Finset.fold max (⊥ : EReal) f (Finset.univ : Finset (Fin 32))) hf

/-! ## The whole reference -/

/-- The reference's result at centre a and channel o: the maximum over the 32 neighbours of the three layers applied
    to the neighbour's gathered feature row. -/
theorem ref_result (x0 : (⟨S65536x3, .f32⟩ : BufTy).Contents (Elt Ideal)) (x1 : (⟨S65536x64, .f32⟩ : BufTy).Contents (Elt Ideal)) (x2 : (⟨S16384, .i32⟩ : BufTy).Contents (Elt Ideal)) (x3 : (⟨S16384x32, .i32⟩ : BufTy).Contents (Elt Ideal))
    (x4 : (⟨S64x67, .f32⟩ : BufTy).Contents (Elt Ideal)) (x5 x6 x7 x8 x9 : (⟨S64, .f32⟩ : BufTy).Contents (Elt Ideal))
    (x10 : (⟨S64x64, .f32⟩ : BufTy).Contents (Elt Ideal)) (x11 x12 x13 x14 x15 : (⟨S64, .f32⟩ : BufTy).Contents (Elt Ideal))
    (x16 : (⟨S128x64, .f32⟩ : BufTy).Contents (Elt Ideal)) (x17 x18 x19 x20 x21 : (⟨S128, .f32⟩ : BufTy).Contents (Elt Ideal))
    (a : Fin 16384) (o : Fin 128) :
    Cert.ReferenceIdeal.Read.val_main_v79 (F := Ideal) x0 x1 x2 x3 x4 x5 x6 x7 x8 x9 x10 x11 x12 x13 x14 x15 x16 x17 x18 x19 x20 x21 (ix2 a o)
      = pool (fun n : Fin 32 => mlpRef (layerOf x4 x5 x6 x7 x8 x9) (layerOf x10 x11 x12 x13 x14 x15) (layerOf x16 x17 x18 x19 x20 x21)
          (fun k : Fin 67 => Cert.ReferenceIdeal.Read.val_main_v24 (F := Ideal) x0 x1 x2 x3 (ix3 a n k)) o) := by
  unfold val_main_v79
  rw [reduce_pool]
  refine congrArg pool (funext fun n => ?_)
  have h0 : (fun k : Fin 64 => val_main_v42 (F := Ideal) x0 x1 x2 x3 x4 x5 x6 x7 x8 x9 (ix3 a n k))
      = (layerOf x4 x5 x6 x7 x8 x9).ref (fun k : Fin 67 => val_main_v24 (F := Ideal) x0 x1 x2 x3 (ix3 a n k)) :=
    funext fun k => layer0 x0 x1 x2 x3 x4 x5 x6 x7 x8 x9 a n k
  have h1 : (fun k : Fin 64 => val_main_v60 (F := Ideal) x0 x1 x2 x3 x4 x5 x6 x7 x8 x9 x10 x11 x12 x13 x14 x15 (ix3 a n k))
      = (layerOf x10 x11 x12 x13 x14 x15).ref ((layerOf x4 x5 x6 x7 x8 x9).ref (fun k : Fin 67 => val_main_v24 (F := Ideal) x0 x1 x2 x3 (ix3 a n k))) :=
    funext fun k => (layer1 x0 x1 x2 x3 x4 x5 x6 x7 x8 x9 x10 x11 x12 x13 x14 x15 a n k).trans (by rw [h0])
  rw [layer2, h1]
  rfl

end Cert.SetAbs.RefRead

end
-- ==== Proof.PreRead.lean ====
/-
  The printed precondition read back, and the gathered input.

  The precondition is an and of 23 tests: for each of the 20 float arrays, every entry has absolute value below +∞,
  and for each of the three running variances, every entry is at least 0. Read at F := Ideal the first kind makes every
  entry a real and the second makes every entry non-negative. The reference's first layer reads a row made by gathering
  rows of the coordinates and of the features and joining them; every entry of a gather is an entry of its operand and
  every entry of a join is an entry of one of its pieces, so the joined row is made of reals.
-/
import proofs.«410673_j69329362092243_3_alg».proof.Pre_finite_inputs
import proofs.«410673_j69329362092243_3_alg».proof.Proof.Gen.ReferenceIdeal.Read
import proofs.«410673_j69329362092243_3_alg».proof.Proof.Spec
import Idealize.ShloMosaic.Lib.ReduceAll
import Idealize.ShloMosaic.Lib.Affine

noncomputable section

namespace Cert.SetAbs.PreRead

open Idealize.ShloMosaic Idealize.ShloMosaic.ValueIdx
open Cert.LibReal (IsReal)

/-! ## The precondition -/

/-- An and of two one-bit scalars that is 1 makes both 1. -/
theorem and_split {a b : IVec (⟨0, ![]⟩ : Shape) 1} (h : andi a b ix0 = 1#1) : a ix0 = 1#1 ∧ b ix0 = 1#1 :=
  IntOp.andi_eq_one.1 h

/-- One conjunct of a sign precondition: an and-reduce to a scalar of "x ≥ 0" that is 1 makes every entry of x
    non-negative, at any shape and whichever axes the reduce names. -/
theorem nonneg_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .oge x (broadcastInDim s ![] hb (constant (F := Ideal) ⟨0, ![]⟩ .f32 0x00000000#32)))
      (constantI ⟨0, ![]⟩ 1 1#1) hr hu ix0 = 1#1) (i : s.Idx) : 0 ≤ x i := by
  have h1 := Host.reduce_andi_all _ _ hr hu ix0 e i
  rw [cmpf_apply, broadcastInDim_apply ![] hb _ i ix0 (fun a => a.elim0)] at h1
  have h3 : Ideal.cmp .oge (x i) (Ideal.ofBits .f32 0x00000000#32) = 1#1 := h1
  rw [Ideal.ofBits_zero_f32] at h3
  by_contra hn
  unfold Ideal.cmp at h3
  simp [hn] at h3

/-- The precondition, read: every float array is made of reals and the three variances are non-negative. -/
theorem reals_of_pre [Cert.Pre_finite_inputs.Facts] (x0 : FVec Ideal Cert.Pre_finite_inputs.S65536x3 .f32) (x1 : FVec Ideal Cert.Pre_finite_inputs.S65536x64 .f32) (x2 : IVec Cert.Pre_finite_inputs.S16384 32) (x3 : IVec Cert.Pre_finite_inputs.S16384x32 32) (x4 : FVec Ideal Cert.Pre_finite_inputs.S64x67 .f32) (x5 : FVec Ideal Cert.Pre_finite_inputs.S64 .f32) (x6 : FVec Ideal Cert.Pre_finite_inputs.S64 .f32) (x7 : FVec Ideal Cert.Pre_finite_inputs.S64 .f32) (x8 : FVec Ideal Cert.Pre_finite_inputs.S64 .f32) (x9 : FVec Ideal Cert.Pre_finite_inputs.S64 .f32) (x10 : FVec Ideal Cert.Pre_finite_inputs.S64x64 .f32) (x11 : FVec Ideal Cert.Pre_finite_inputs.S64 .f32) (x12 : FVec Ideal Cert.Pre_finite_inputs.S64 .f32) (x13 : FVec Ideal Cert.Pre_finite_inputs.S64 .f32) (x14 : FVec Ideal Cert.Pre_finite_inputs.S64 .f32) (x15 : FVec Ideal Cert.Pre_finite_inputs.S64 .f32) (x16 : FVec Ideal Cert.Pre_finite_inputs.S128x64 .f32) (x17 : FVec Ideal Cert.Pre_finite_inputs.S128 .f32) (x18 : FVec Ideal Cert.Pre_finite_inputs.S128 .f32) (x19 : FVec Ideal Cert.Pre_finite_inputs.S128 .f32) (x20 : FVec Ideal Cert.Pre_finite_inputs.S128 .f32) (x21 : FVec Ideal Cert.Pre_finite_inputs.S128 .f32)
    (h : Cert.Pre_finite_inputs.fn (F := Ideal) x0 x1 x2 x3 x4 x5 x6 x7 x8 x9 x10 x11 x12 x13 x14 x15 x16 x17 x18 x19 x20 x21 = (fun _ => 1#1)) :
    (∀ i, IsReal (x0 i)) ∧ (∀ i, IsReal (x1 i)) ∧ (∀ i, IsReal (x4 i)) ∧ (∀ i, IsReal (x5 i)) ∧ (∀ i, IsReal (x6 i)) ∧ (∀ i, IsReal (x7 i)) ∧ (∀ i, IsReal (x8 i)) ∧ (∀ i, IsReal (x9 i)) ∧ (∀ i, IsReal (x10 i)) ∧ (∀ i, IsReal (x11 i)) ∧ (∀ i, IsReal (x12 i)) ∧ (∀ i, IsReal (x13 i)) ∧ (∀ i, IsReal (x14 i)) ∧ (∀ i, IsReal (x15 i)) ∧ (∀ i, IsReal (x16 i)) ∧ (∀ i, IsReal (x17 i)) ∧ (∀ i, IsReal (x18 i)) ∧ (∀ i, IsReal (x19 i)) ∧ (∀ i, IsReal (x20 i)) ∧ (∀ i, IsReal (x21 i)) ∧ (∀ i, 0 ≤ x9 i) ∧ (∀ i, 0 ≤ x15 i) ∧ (∀ i, 0 ≤ x21 i) := by
  have h := congrFun h ix0
  unfold Cert.Pre_finite_inputs.fn Cert.Pre_finite_inputs.fn_part1 Cert.Pre_finite_inputs.fn_part2 Cert.Pre_finite_inputs.fn_part3 Cert.Pre_finite_inputs.fn_part4 Cert.Pre_finite_inputs.fn_part5 Cert.Pre_finite_inputs.fn_part6 at h
  dsimp only at h
  obtain ⟨h, c22⟩ := and_split h
  obtain ⟨h, c21⟩ := and_split h
  obtain ⟨h, c20⟩ := and_split h
  obtain ⟨h, c19⟩ := and_split h
  obtain ⟨h, c18⟩ := and_split h
  obtain ⟨h, c17⟩ := and_split h
  obtain ⟨h, c16⟩ := and_split h
  obtain ⟨h, c15⟩ := and_split h
  obtain ⟨h, c14⟩ := and_split h
  obtain ⟨h, c13⟩ := and_split h
  obtain ⟨h, c12⟩ := and_split h
  obtain ⟨h, c11⟩ := and_split h
  obtain ⟨h, c10⟩ := and_split h
  obtain ⟨h, c9⟩ := and_split h
  obtain ⟨h, c8⟩ := and_split h
  obtain ⟨h, c7⟩ := and_split h
  obtain ⟨h, c6⟩ := and_split h
  obtain ⟨h, c5⟩ := and_split h
  obtain ⟨h, c4⟩ := and_split h
  obtain ⟨h, c3⟩ := and_split h
  obtain ⟨h, c2⟩ := and_split h
  obtain ⟨c0, c1⟩ := and_split h
  exact ⟨Cert.LibReal.isReal_of_all x0 Cert.Pre_finite_inputs.Facts.bcast_S_S65536x3 Cert.Pre_finite_inputs.Facts.reducesTo_S65536x3_S_d0_1 Cert.Pre_finite_inputs.Facts.h_S_ c0,
    Cert.LibReal.isReal_of_all x1 Cert.Pre_finite_inputs.Facts.bcast_S_S65536x64 Cert.Pre_finite_inputs.Facts.reducesTo_S65536x64_S_d0_1 Cert.Pre_finite_inputs.Facts.h_S_ c1,
    Cert.LibReal.isReal_of_all x4 Cert.Pre_finite_inputs.Facts.bcast_S_S64x67 Cert.Pre_finite_inputs.Facts.reducesTo_S64x67_S_d0_1 Cert.Pre_finite_inputs.Facts.h_S_ c2,
    Cert.LibReal.isReal_of_all x5 Cert.Pre_finite_inputs.Facts.bcast_S_S64 Cert.Pre_finite_inputs.Facts.reducesTo_S64_S_d0 Cert.Pre_finite_inputs.Facts.h_S_ c3,
    Cert.LibReal.isReal_of_all x6 Cert.Pre_finite_inputs.Facts.bcast_S_S64 Cert.Pre_finite_inputs.Facts.reducesTo_S64_S_d0 Cert.Pre_finite_inputs.Facts.h_S_ c4,
    Cert.LibReal.isReal_of_all x7 Cert.Pre_finite_inputs.Facts.bcast_S_S64 Cert.Pre_finite_inputs.Facts.reducesTo_S64_S_d0 Cert.Pre_finite_inputs.Facts.h_S_ c5,
    Cert.LibReal.isReal_of_all x8 Cert.Pre_finite_inputs.Facts.bcast_S_S64 Cert.Pre_finite_inputs.Facts.reducesTo_S64_S_d0 Cert.Pre_finite_inputs.Facts.h_S_ c6,
    Cert.LibReal.isReal_of_all x9 Cert.Pre_finite_inputs.Facts.bcast_S_S64 Cert.Pre_finite_inputs.Facts.reducesTo_S64_S_d0 Cert.Pre_finite_inputs.Facts.h_S_ c7,
    Cert.LibReal.isReal_of_all x10 Cert.Pre_finite_inputs.Facts.bcast_S_S64x64 Cert.Pre_finite_inputs.Facts.reducesTo_S64x64_S_d0_1 Cert.Pre_finite_inputs.Facts.h_S_ c8,
    Cert.LibReal.isReal_of_all x11 Cert.Pre_finite_inputs.Facts.bcast_S_S64 Cert.Pre_finite_inputs.Facts.reducesTo_S64_S_d0 Cert.Pre_finite_inputs.Facts.h_S_ c9,
    Cert.LibReal.isReal_of_all x12 Cert.Pre_finite_inputs.Facts.bcast_S_S64 Cert.Pre_finite_inputs.Facts.reducesTo_S64_S_d0 Cert.Pre_finite_inputs.Facts.h_S_ c10,
    Cert.LibReal.isReal_of_all x13 Cert.Pre_finite_inputs.Facts.bcast_S_S64 Cert.Pre_finite_inputs.Facts.reducesTo_S64_S_d0 Cert.Pre_finite_inputs.Facts.h_S_ c11,
    Cert.LibReal.isReal_of_all x14 Cert.Pre_finite_inputs.Facts.bcast_S_S64 Cert.Pre_finite_inputs.Facts.reducesTo_S64_S_d0 Cert.Pre_finite_inputs.Facts.h_S_ c12,
    Cert.LibReal.isReal_of_all x15 Cert.Pre_finite_inputs.Facts.bcast_S_S64 Cert.Pre_finite_inputs.Facts.reducesTo_S64_S_d0 Cert.Pre_finite_inputs.Facts.h_S_ c13,
    Cert.LibReal.isReal_of_all x16 Cert.Pre_finite_inputs.Facts.bcast_S_S128x64 Cert.Pre_finite_inputs.Facts.reducesTo_S128x64_S_d0_1 Cert.Pre_finite_inputs.Facts.h_S_ c14,
    Cert.LibReal.isReal_of_all x17 Cert.Pre_finite_inputs.Facts.bcast_S_S128 Cert.Pre_finite_inputs.Facts.reducesTo_S128_S_d0 Cert.Pre_finite_inputs.Facts.h_S_ c15,
    Cert.LibReal.isReal_of_all x18 Cert.Pre_finite_inputs.Facts.bcast_S_S128 Cert.Pre_finite_inputs.Facts.reducesTo_S128_S_d0 Cert.Pre_finite_inputs.Facts.h_S_ c16,
    Cert.LibReal.isReal_of_all x19 Cert.Pre_finite_inputs.Facts.bcast_S_S128 Cert.Pre_finite_inputs.Facts.reducesTo_S128_S_d0 Cert.Pre_finite_inputs.Facts.h_S_ c17,
    Cert.LibReal.isReal_of_all x20 Cert.Pre_finite_inputs.Facts.bcast_S_S128 Cert.Pre_finite_inputs.Facts.reducesTo_S128_S_d0 Cert.Pre_finite_inputs.Facts.h_S_ c18,
    Cert.LibReal.isReal_of_all x21 Cert.Pre_finite_inputs.Facts.bcast_S_S128 Cert.Pre_finite_inputs.Facts.reducesTo_S128_S_d0 Cert.Pre_finite_inputs.Facts.h_S_ c19,
    nonneg_of_all x9 Cert.Pre_finite_inputs.Facts.bcast_S_S64 Cert.Pre_finite_inputs.Facts.reducesTo_S64_S_d0 Cert.Pre_finite_inputs.Facts.h_S_ c20,
    nonneg_of_all x15 Cert.Pre_finite_inputs.Facts.bcast_S_S64 Cert.Pre_finite_inputs.Facts.reducesTo_S64_S_d0 Cert.Pre_finite_inputs.Facts.h_S_ c21,
    nonneg_of_all x21 Cert.Pre_finite_inputs.Facts.bcast_S_S128 Cert.Pre_finite_inputs.Facts.reducesTo_S128_S_d0 Cert.Pre_finite_inputs.Facts.h_S_ c22⟩

/-! ## The gathered and joined input -/

open Cert.ReferenceIdeal Cert.ReferenceIdeal.Gen Cert.ReferenceIdeal.Read

/-- Every entry of a gather is an entry of its operand, whatever the start indices are. -/
theorem gather_all {α : Type} (P : α → Prop) {s si t : Shape} {w : Nat} (d : GatherDims s si t) (x : s.Idx → α)
    (idx : IVec si w) (hx : ∀ i, P (x i)) (j : t.Idx) : P (Host.gather d x idx j) := hx _

/-- Every entry of a join is an entry of one of its pieces. -/
theorem concatenate_all {α : Type} (P : α → Prop) (t : Shape) (a : Fin t.rank) (xs : List ((s : Shape) × (s.Idx → α)))
    (h : Shape.Concatenates (xs.map (·.1)) t a) (hx : ∀ p ∈ xs, ∀ i, P (p.2 i)) (j : t.Idx) :
    P (concatenate t a xs h j) := by
  unfold concatenate
  dsimp only
  exact hx _ (List.getElem_mem _) _

/-- A join of two pieces of reals is made of reals. -/
theorem concat2_real (t sa sb : Shape) (a : Fin t.rank) (A : sa.Idx → EReal) (B : sb.Idx → EReal)
    (h : Shape.Concatenates [sa, sb] t a) (hA : ∀ i, IsReal (A i)) (hB : ∀ i, IsReal (B i)) (j : t.Idx) :
    IsReal (concatenate t a [⟨sa, A⟩, ⟨sb, B⟩] h j) := by
  refine concatenate_all IsReal t a [⟨sa, A⟩, ⟨sb, B⟩] h ?_ j
  intro p hp
  rcases List.mem_cons.1 hp with rfl | hp
  · exact hA
  · rcases List.mem_cons.1 hp with rfl | hp
    · exact hB
    · exact absurd hp List.not_mem_nil

section
variable (x0 : (⟨S65536x3, .f32⟩ : BufTy).Contents (Elt Ideal)) (x1 : (⟨S65536x64, .f32⟩ : BufTy).Contents (Elt Ideal))
  (x2 : (⟨S16384, .i32⟩ : BufTy).Contents (Elt Ideal)) (x3 : (⟨S16384x32, .i32⟩ : BufTy).Contents (Elt Ideal))

/-- The centres' coordinates, gathered, are reals. -/
theorem v6_real (h0 : ∀ i, IsReal (x0 i)) (j : S16384x3.Idx) : IsReal (val_main_v6 (F := Ideal) x0 x2 j) := by
  unfold val_main_v6
  exact gather_all IsReal _ x0 _ h0 j

/-- The neighbours' coordinates, gathered, are reals. -/
theorem v13_real (h0 : ∀ i, IsReal (x0 i)) (j : S16384x32x3.Idx) : IsReal (val_main_v13 (F := Ideal) x0 x3 j) := by
  unfold val_main_v13
  exact gather_all IsReal _ x0 _ h0 j

/-- The neighbours' features, gathered, are reals. -/
theorem v23_real (h1 : ∀ i, IsReal (x1 i)) (j : S16384x32x64.Idx) : IsReal (val_main_v23 (F := Ideal) x1 x3 j) := by
  unfold val_main_v23
  exact gather_all IsReal _ x1 _ h1 j

/-- The neighbours' coordinates relative to their centre are reals. -/
theorem v16_real (h0 : ∀ i, IsReal (x0 i)) (j : S16384x32x3.Idx) : IsReal (val_main_v16 (F := Ideal) x0 x2 x3 j) := by
  rw [val_main_v16_apply, val_main_v15_apply, val_main_v14_apply]
  exact IsReal.sub (v13_real x0 x3 h0 j) (v6_real x0 x2 h0 _)

/-- The first layer's input row, relative coordinates joined with features, is made of reals. -/
theorem hin_real (h0 : ∀ i, IsReal (x0 i)) (h1 : ∀ i, IsReal (x1 i)) :
    ∀ i, IsReal (val_main_v24 (F := Ideal) x0 x1 x2 x3 i) := by
  intro i
  unfold val_main_v24
  exact concat2_real S16384x32x67 S16384x32x3 S16384x32x64 2 _ _ _ (v16_real x0 x2 x3 h0) (v23_real x1 x3 h1) i

end

end Cert.SetAbs.PreRead

end
-- ==== Proof.Bridge.lean ====
/-
  The two programs compute one function.

  Under the precondition every input number is a real and the three running variances are
  non-negative; the gathered rows are then rows of reals, each layer's folded form equals its plain
  form on them (the specification's law), and so the pooled result of the kernel's folded layers is the
  reference's result, centre by centre and channel by channel.
-/
import proofs.«410673_j69329362092243_3_alg».proof.Proof.Spec
import proofs.«410673_j69329362092243_3_alg».proof.Proof.RefRead
import proofs.«410673_j69329362092243_3_alg».proof.Proof.PreRead

noncomputable section

namespace Cert.SetAbs.Bridge

open Idealize.ShloMosaic Idealize.ShloMosaic.ValueIdx
open Cert.SetAbs Cert.LibReal

/-- The pooled folded layers on the gathered rows are the reference's result, under the precondition. -/
theorem folded_eq_reference [Cert.Pre_finite_inputs.Facts] (x0 : FVec Ideal Cert.Pre_finite_inputs.S65536x3 .f32) (x1 : FVec Ideal Cert.Pre_finite_inputs.S65536x64 .f32) (x2 : IVec Cert.Pre_finite_inputs.S16384 32) (x3 : IVec Cert.Pre_finite_inputs.S16384x32 32) (x4 : FVec Ideal Cert.Pre_finite_inputs.S64x67 .f32) (x5 : FVec Ideal Cert.Pre_finite_inputs.S64 .f32) (x6 : FVec Ideal Cert.Pre_finite_inputs.S64 .f32) (x7 : FVec Ideal Cert.Pre_finite_inputs.S64 .f32) (x8 : FVec Ideal Cert.Pre_finite_inputs.S64 .f32) (x9 : FVec Ideal Cert.Pre_finite_inputs.S64 .f32) (x10 : FVec Ideal Cert.Pre_finite_inputs.S64x64 .f32) (x11 : FVec Ideal Cert.Pre_finite_inputs.S64 .f32) (x12 : FVec Ideal Cert.Pre_finite_inputs.S64 .f32) (x13 : FVec Ideal Cert.Pre_finite_inputs.S64 .f32) (x14 : FVec Ideal Cert.Pre_finite_inputs.S64 .f32) (x15 : FVec Ideal Cert.Pre_finite_inputs.S64 .f32) (x16 : FVec Ideal Cert.Pre_finite_inputs.S128x64 .f32) (x17 : FVec Ideal Cert.Pre_finite_inputs.S128 .f32) (x18 : FVec Ideal Cert.Pre_finite_inputs.S128 .f32) (x19 : FVec Ideal Cert.Pre_finite_inputs.S128 .f32) (x20 : FVec Ideal Cert.Pre_finite_inputs.S128 .f32) (x21 : FVec Ideal Cert.Pre_finite_inputs.S128 .f32)
    (h : Cert.Pre_finite_inputs.fn (F := Ideal) x0 x1 x2 x3 x4 x5 x6 x7 x8 x9 x10 x11 x12 x13 x14 x15 x16 x17 x18 x19 x20 x21 = fun _ => 1#1) (a : Fin 16384) (o : Fin 128) :
    pool (fun n : Fin 32 => mlpKer (layerOf (K := 67) (O := 64) x4 x5 x6 x7 x8 x9).fold (layerOf (K := 64) (O := 64) x10 x11 x12 x13 x14 x15).fold
        (layerOf (K := 64) (O := 128) x16 x17 x18 x19 x20 x21).fold
        (fun k : Fin 67 => Cert.ReferenceIdeal.Read.val_main_v24 (F := Ideal) x0 x1 x2 x3 (ix3 a n k)) o)
      = Cert.ReferenceIdeal.Read.val_main_v79 (F := Ideal) x0 x1 x2 x3 x4 x5 x6 x7 x8 x9 x10 x11 x12 x13 x14 x15 x16 x17 x18 x19 x20 x21 (ix2 a o) := by
  obtain ⟨r0, r1, r4, r5, r6, r7, r8, r9, r10, r11, r12, r13, r14, r15, r16, r17, r18, r19, r20, r21, p9, p15, p21⟩ :=
    PreRead.reals_of_pre x0 x1 x2 x3 x4 x5 x6 x7 x8 x9 x10 x11 x12 x13 x14 x15 x16 x17 x18 x19 x20 x21 h
  have hin := PreRead.hin_real x0 x1 x2 x3 r0 r1
  have L0 : (layerOf (K := 67) (O := 64) x4 x5 x6 x7 x8 x9).Real := layerOf_real r4 r5 r6 r7 r8 r9 p9
  have L1 : (layerOf (K := 64) (O := 64) x10 x11 x12 x13 x14 x15).Real := layerOf_real r10 r11 r12 r13 r14 r15 p15
  have L2 : (layerOf (K := 64) (O := 128) x16 x17 x18 x19 x20 x21).Real := layerOf_real r16 r17 r18 r19 r20 r21 p21
  rw [RefRead.ref_result]
  refine congrArg pool (funext fun n => ?_)
  rw [mlp_fold L0 L1 L2 (fun k => hin _)]

end Cert.SetAbs.Bridge

end
-- ==== Proof.lean ====
/- The proof of `Cert.Claim` (proofs.«410673_j69329362092243_3_alg».proof.Defs): hand-written, untrusted.

   The operator is a PointNet set abstraction: gather each centre's 32 neighbours, concatenate relative
   coordinates and features, apply three shared layers (linear map, inference-time batch normalisation,
   rectifier) and take the maximum over the neighbours. The kernel performs the gathers on the host exactly
   as the reference does, folds each normalisation into one scale and one bias, and runs the layers and the
   pooling over blocks of 256 centres. Over the extended reals the folded and the plain layer agree when
   all numbers are reals and the normalisation's scale is a real, which is what the precondition provides
   (finite inputs, non-negative running variances).

   Proof/Spec.lean      the layer in both spellings and the law between them
   Proof/KerPay.lean    the kernel body's arithmetic read at an index
   Proof/KerHost.lean   the arrays the region finds, as functions of the arguments
   Proof/KerArr.lean    from the 64 blocks to the result array
   Proof/RefRead.lean   the reference's result read at an index
   Proof/PreRead.lean   the precondition read back: reals, non-negative variances
   Proof/Bridge.lean    the two results are one function
   The frames of the two kernel programs and the reference's run are the generated modules'. -/
import proofs.«410673_j69329362092243_3_alg».proof.Defs
import proofs.«410673_j69329362092243_3_alg».proof.Proof.Gen.Kernel
import proofs.«410673_j69329362092243_3_alg».proof.Proof.Gen.Kernel.Skeleton
import proofs.«410673_j69329362092243_3_alg».proof.Proof.Gen.Kernel.Launch
import proofs.«410673_j69329362092243_3_alg».proof.Proof.Gen.Kernel.Points
import proofs.«410673_j69329362092243_3_alg».proof.Proof.Gen.Kernel.Frame
import proofs.«410673_j69329362092243_3_alg».proof.Proof.Gen.KernelIdeal
import proofs.«410673_j69329362092243_3_alg».proof.Proof.Gen.KernelIdeal.Skeleton
import proofs.«410673_j69329362092243_3_alg».proof.Proof.Gen.KernelIdeal.Launch
import proofs.«410673_j69329362092243_3_alg».proof.Proof.Gen.KernelIdeal.Points
import proofs.«410673_j69329362092243_3_alg».proof.Proof.Gen.KernelIdeal.Frame
import proofs.«410673_j69329362092243_3_alg».proof.Proof.Gen.KernelIdeal.Value
import proofs.«410673_j69329362092243_3_alg».proof.Proof.Gen.ReferenceIdeal
import proofs.«410673_j69329362092243_3_alg».proof.Proof.Gen.ReferenceIdeal.Run
import proofs.«410673_j69329362092243_3_alg».proof.Proof.Gen.ReferenceIdeal.Read
import proofs.«410673_j69329362092243_3_alg».proof.Proof.Gen.Pre_finite_inputs
import proofs.«410673_j69329362092243_3_alg».proof.Proof.KerHost
import proofs.«410673_j69329362092243_3_alg».proof.Proof.KerArr
import proofs.«410673_j69329362092243_3_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx
open Cert.SetAbs

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

set_option maxHeartbeats 4000000 in
/-- Both programs end with the gathered centres, the pooled three-layer features and the count of centres:
    the kernel's feature array is the result function of its blocks, the reference's is its composed term,
    and under the precondition the two are one function of the arguments. -/
theorem algebraic : Cert.algebraic_KernelIdeal_ReferenceIdeal := by
  intro m ρ m' ρ' hpre hagree
  refine ⟨fun c => Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => KerArr.result m c, fun _ => constantI Cert.KernelIdeal.S1 32 16384#32, ?_, ?_⟩
  · refine (θ_run Cert.KernelIdeal.defs _ _).mono (fun r h c => ?_) (Cert.KernelIdeal.Gen.run_main m ρ)
    exact ⟨((h c).2 Cert.KernelIdeal.main_v6 (Pipeline.mem_restRefs_of Cert.KernelIdeal.main_v6 (by decide) (by decide))).trans (KerHost.centres_eq m c),
        (Cert.KernelIdeal.Value.post10 m r h c).trans (KerArr.final m c),
        ((h c).2 Cert.KernelIdeal.main_c (Pipeline.mem_restRefs_of Cert.KernelIdeal.main_c (by decide) (by decide))).trans (KerHost.count_eq m c),
        Cert.KernelIdeal.Value.kept_main_arg0 m r h c,
        Cert.KernelIdeal.Value.kept_main_arg1 m r h c,
        Cert.KernelIdeal.Value.kept_main_arg2 m r h c,
        Cert.KernelIdeal.Value.kept_main_arg3 m r h c,
        Cert.KernelIdeal.Value.kept_main_arg4 m r h c,
        Cert.KernelIdeal.Value.kept_main_arg5 m r h c,
        Cert.KernelIdeal.Value.kept_main_arg6 m r h c,
        Cert.KernelIdeal.Value.kept_main_arg7 m r h c,
        Cert.KernelIdeal.Value.kept_main_arg8 m r h c,
        Cert.KernelIdeal.Value.kept_main_arg9 m r h c,
        Cert.KernelIdeal.Value.kept_main_arg10 m r h c,
        Cert.KernelIdeal.Value.kept_main_arg11 m r h c,
        Cert.KernelIdeal.Value.kept_main_arg12 m r h c,
        Cert.KernelIdeal.Value.kept_main_arg13 m r h c,
        Cert.KernelIdeal.Value.kept_main_arg14 m r h c,
        Cert.KernelIdeal.Value.kept_main_arg15 m r h c,
        Cert.KernelIdeal.Value.kept_main_arg16 m r h c,
        Cert.KernelIdeal.Value.kept_main_arg17 m r h c,
        Cert.KernelIdeal.Value.kept_main_arg18 m r h c,
        Cert.KernelIdeal.Value.kept_main_arg19 m r h c,
        Cert.KernelIdeal.Value.kept_main_arg20 m r h c,
        Cert.KernelIdeal.Value.kept_main_arg21 m r h c⟩
  · refine (θ_run Cert.ReferenceIdeal.defs _ _).mono (fun r h c => ⟨(h c).1.trans ?_, (h c).2.1.trans ?_, (h c).2.2.1, (h c).2.2.2⟩)
      (Cert.ReferenceIdeal.Value.run (F := Ideal) m' ρ')
    · rw [(hagree c).1, (hagree c).2.2.1]
      rfl
    · obtain ⟨g0, g1, g2, g3, g4, g5, g6, g7, g8, g9, g10, g11, g12, g13, g14, g15, g16, g17, g18, g19, g20, g21⟩ := hagree c
      rw [Cert.ReferenceIdeal.Read.val_main_v79_eq, g0, g1, g2, g3, g4, g5, g6, g7, g8, g9, g10, g11, g12, g13, g14, g15, g16, g17, g18, g19, g20, g21]
      funext i
      obtain ⟨a, o, rfl⟩ : ∃ (a : Fin 16384) (o : Fin 128), i = ix2 a o := ⟨i 0, i 1, eq_ix2 i⟩
      refine (Bridge.folded_eq_reference (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (hpre c) a o).symm.trans ?_
      show _ = KerArr.resultAt m c a o
      unfold KerArr.resultAt
      rw [show KerArr.fold0 m c = _ from KerHost.fold0_eq m c, show KerArr.fold1 m c = _ from KerHost.fold1_eq m c,
        show KerArr.fold2 m c = _ from KerHost.fold2_eq m c, KerHost.hin_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
